-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg2 : IVec S640000 32) (main_v48 : IVec S_ 1) (main_v50 : IVec S640000 1) : IVec S_ 1 :=
  let main_c_19 : IVec S_ 32 := constantI S_ 32 50000#32
  let main_v51 : IVec S640000 32 := broadcastInDim S640000 ![] bcast_S_S640000 main_c_19
  let main_v52 : IVec S640000 1 := cmpi .slt main_arg2 main_v51
  let main_v53 : IVec S640000 1 := andi main_v50 main_v52
  let main_c_20 : IVec S_ 1 := constantI S_ 1 1#1
  let main_v54 : IVec S_ 1 := (fun x v => Host.reduce IntOp.andi x v reducesTo_S640000_S_d0 h_S_) main_v53 main_c_20
  let main_v55 : IVec S_ 1 := andi main_v48 main_v54
  main_v55

def fn_part2 {F : FTy → Type} [FloatOps F] (main_arg2 : IVec S640000 32) (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S640000 32 := broadcastInDim S640000 ![] bcast_S_S640000 main_c_18
  let main_v50 : IVec S640000 1 := cmpi .sge main_arg2 main_v49
  fn_part3 (F := F) main_arg2 main_v48 main_v50

def fn_part1 {F : FTy → Type} [FloatOps F] (main_arg2 : IVec S640000 32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S50000x128 .f32) (main_arg1 : FVec F S640000x128 .f32) (main_arg2 : IVec S640000 32) (main_arg3 : IVec S640000 32) (main_arg4 : FVec F S384x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_v13 main_v16
-- ==== Kernel.lean ====
abbrev S50000x128 : Shape := ⟨2, ![50000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128 : Shape := ⟨2, ![1, 128]⟩
abbrev S5000x128 : Shape := ⟨2, ![5000, 128]⟩

abbrev nBuf : Space → Nat
  | .hbm => 73
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S1, .i32⟩
  | .hbm, ⟨21, _⟩ => ⟨S_, .i32⟩
  | .hbm, ⟨22, _⟩ => ⟨S640000x1, .i32⟩
  | .hbm, ⟨23, _⟩ => ⟨S640000x1, .i1⟩
  | .hbm, ⟨24, _⟩ => ⟨S1x1, .i32⟩
  | .hbm, ⟨25, _⟩ => ⟨S640000x1, .i32⟩
  | .hbm, ⟨26, _⟩ => ⟨S640000x1, .i1⟩
  | .hbm, ⟨27, _⟩ => ⟨S640000x1, .i1⟩
  | .hbm, ⟨28, _⟩ => ⟨S_, .i1⟩
  | .hbm, ⟨29, _⟩ => ⟨S640000, .i1⟩
  | .hbm, ⟨30, _⟩ => ⟨S640000x128, .f32⟩
  | .hbm, ⟨31, _⟩ => ⟨S640000x128, .i1⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S1, .i32⟩
  | .hbm, ⟨44, _⟩ => ⟨S_, .i32⟩
  | .hbm, ⟨45, _⟩ => ⟨S640000x1, .i32⟩
  | .hbm, ⟨46, _⟩ => ⟨S640000x1, .i1⟩
  | .hbm, ⟨47, _⟩ => ⟨S1x1, .i32⟩
  | .hbm, ⟨48, _⟩ => ⟨S640000x1, .i32⟩
  | .hbm, ⟨49, _⟩ => ⟨S640000x1, .i1⟩
  | .hbm, ⟨50, _⟩ => ⟨S640000x1, .i1⟩
  | .hbm, ⟨51, _⟩ => ⟨S_, .i1⟩
  | .hbm, ⟨52, _⟩ => ⟨S640000, .i1⟩
  | .hbm, ⟨53, _⟩ => ⟨S640000x128, .f32⟩
  | .hbm, ⟨54, _⟩ => ⟨S640000x128, .i1⟩
  | .hbm, ⟨55, _⟩ => ⟨S_, .f32⟩
  | .hbm, ⟨56, _⟩ => ⟨S640000x128, .f32⟩
  | .hbm, ⟨57, _⟩ => ⟨S640000x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S1x128, .f32⟩
  | .hbm, ⟨63, _⟩ => ⟨S640000x128, .f32⟩
  | .hbm, ⟨64, _⟩ => ⟨S_, .f32⟩
  | .hbm, ⟨65, _⟩ => ⟨S50000x128, .f32⟩
  | .hbm, ⟨66, _⟩ => ⟨S640000x1, .i32⟩
  | .hbm, ⟨67, _⟩ => ⟨S50000x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S1x128, .f32⟩
  | .hbm, ⟨72, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_cst : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  gather_S50000x128_S640000x1_S640000x128_1_0_n_n_0_1_1128_wf : GatherDims.WF S50000x128 S640000x1 S640000x128 [1] [0] [] [0] [] 1 ![1, 128]
  dot_S5000x128_S128x128_S5000x128_1_0_0_1_n_n_wf : DotDims.WF S5000x128 S128x128 S5000x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S640000x128.size a
  hwx0_2 : ∀ i : grid0.Coords, EltTy.bits .f32 = 32 ∨ (Rect.block (s := S640000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S640000x128.size a
  hwx0_9 : ∀ i : grid0.Coords, EltTy.bits .f32 = 32 ∨ (Rect.block (s := S640000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S50000x256 : Shape := ⟨2, ![50000, 256]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x384, .f32⟩
  | .hbm, ⟨31, _⟩ => ⟨S640000x128, .f32⟩
  | .hbm, ⟨32, _⟩ => ⟨S1x128, .f32⟩
  | .hbm, ⟨33, _⟩ => ⟨S640000x128, .f32⟩
  | .hbm, ⟨34, _⟩ => ⟨S640000x128, .f32⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S50000x128, .f32⟩
  | .hbm, ⟨44, _⟩ => ⟨S640000x1, .i32⟩
  | .hbm, ⟨45, _⟩ => ⟨S50000x128, .f32⟩
  | .hbm, ⟨46, _⟩ => ⟨S50000x256, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SrcRange.lean ====
/-
  The precondition's last conjunct, decoded.

  The precondition is one bit: the conjunction of "every entry of this float input is finite", for the ten float inputs,
  and of "every source index `x` satisfies `0 ≤ x` and `x < 50000`", the comparisons signed, the conjunction over the
  640000 positions taken by an and-reduction. If the bit is one, each conjunct is one, so at every position the two
  comparisons hold, which as statements about the signed value of the 32-bit word are `0 ≤ x` and `x < 50000`.
-/
import proofs.«410413_j30605936951829_1_alg».proof.Pre_finite_inputs
import Idealize.ShloMosaic.Lib.ValueIdx
import Idealize.ShloMosaic.Lib.ReduceAll
import Idealize.ShloMosaic.Lib.StableHlo.Predicate

noncomputable section

namespace Cert.Pre_finite_inputs.SrcRange

open Idealize.ShloMosaic Idealize.ShloMosaic.ValueIdx
open Cert.Pre_finite_inputs Cert.Pre_finite_inputs.Facts

variable {F : FTy → Type} [FloatOps F] [Facts]

/-- A 32-bit word that tests signed-at-least zero has a nonnegative signed value. -/
theorem nonneg_of_sge_zero (w : BitVec 32) (h : IntOp.cmpi .sge w 0#32 = 1#1) : 0 ≤ w.toInt := by
  have h' := IntOp.cmpi_sge.1 h
  rwa [show (0#32 : BitVec 32).toInt = 0 from by decide] at h'

/-- A 32-bit word that tests signed-below 50000 has a signed value below 50000. -/
theorem lt_of_slt_bound (w : BitVec 32) (h : IntOp.cmpi .slt w 50000#32 = 1#1) : w.toInt < 50000 := by
  have h' := IntOp.cmpi_slt.1 h
  rwa [show (50000#32 : BitVec 32).toInt = 50000 from by decide] at h'

/-- The scalar shape has exactly one index. -/
theorem subsingleton_scalarIdx : Subsingleton S_.Idx := ⟨fun a b => funext fun d => d.elim0⟩

/-- A scalar constant spread over the index vector reads that constant at every position. -/
theorem bcast_const (c : BitVec 32) (p : Fin 640000) :
    broadcastInDim S640000 ![] bcast_S_S640000 (constantI S_ 32 c) (ix1 p) = c :=
  StableHlo.Predicate.bcast_scalar bcast_S_S640000 h_S_ (constantI S_ 32 c) (ix1 p)

/-- The range test on the index vector, once its conjunction over all positions is known to hold:
    each position passes both comparisons, so its signed value lies in [0, 50000). -/
theorem inRange_of_all (a2 : IVec S640000 32)
    (h : Host.reduce IntOp.andi
          (andi (cmpi .sge a2 (broadcastInDim S640000 ![] bcast_S_S640000 (constantI S_ 32 0#32)))
                (cmpi .slt a2 (broadcastInDim S640000 ![] bcast_S_S640000 (constantI S_ 32 50000#32))))
          (constantI S_ 1 1#1) reducesTo_S640000_S_d0 h_S_ ix0 = 1#1) (p : Fin 640000) :
    0 ≤ (a2 (ix1 p)).toInt ∧ (a2 (ix1 p)).toInt < 50000 := by
  haveI := subsingleton_scalarIdx
  have hp := Host.reduce_andi_all _ _ reducesTo_S640000_S_d0 h_S_ ix0 h (ix1 p)
  obtain ⟨hge, hlt⟩ := IntOp.andi_eq_one.1 hp
  have hge' : IntOp.cmpi .sge (a2 (ix1 p)) (broadcastInDim S640000 ![] bcast_S_S640000 (constantI S_ 32 0#32) (ix1 p)) = 1#1 := hge
  have hlt' : IntOp.cmpi .slt (a2 (ix1 p)) (broadcastInDim S640000 ![] bcast_S_S640000 (constantI S_ 32 50000#32) (ix1 p)) = 1#1 := hlt
  rw [bcast_const] at hge' hlt'
  exact ⟨nonneg_of_sge_zero _ hge', lt_of_slt_bound _ hlt'⟩

/-- The precondition's last conjunct, read at one position: every source index is a row number of the node table. -/
theorem src_inRange (a0 : FVec F S50000x128 .f32) (a1 : FVec F S640000x128 .f32) (a2 a3 : IVec S640000 32)
    (a4 : FVec F S384x128 .f32) (a5 : FVec F S128 .f32) (a6 : FVec F S128x128 .f32) (a7 : FVec F S128 .f32)
    (a8 : FVec F S256x128 .f32) (a9 : FVec F S128 .f32) (a10 : FVec F S128x128 .f32) (a11 : FVec F S128 .f32)
    (h : fn (F := F) a0 a1 a2 a3 a4 a5 a6 a7 a8 a9 a10 a11 = fun _ => 1#1) (p : Fin 640000) :
    0 ≤ (a2 (ix1 p)).toInt ∧ (a2 (ix1 p)).toInt < 50000 := by
  -- the function's value is a one-bit AND whose second operand is the range test's conjunction over all positions
  have h1 := congrFun h ix0
  dsimp only [fn, fn_part1, fn_part2, fn_part3] at h1
  exact inRange_of_all a2 (IntOp.andi_eq_one.1 h1).2 p

end Cert.Pre_finite_inputs.SrcRange

end
-- ==== Proof.Spec.lean ====
/-
  A two-layer perceptron applied row by row, as the message-passing layer uses it twice.

  A row `x` of 128 numbers meets a 128 × 128 weight matrix `W` as `x · W`, whose column `k` is `∑ j, x j · W (j, k)`.
  The edge update takes three rows (the source node's, the destination node's, the edge's), adds their three products
  with three weight matrices and a bias, clips at zero, multiplies by a second matrix and adds a second bias; the node
  update does the same with two rows (the summed messages, the node's own). Everything is over the extended reals, where
  addition and multiplication are commutative and associative, which is all that the comparison of the two programs
  uses. The zero the clip compares with is kept as the word both programs print.

  A weight matrix that is a band of 128 consecutive rows of a taller matrix is `band`; a bias vector laid out as one
  row of 128 is `asRow`.
-/
import Idealize.ShloMosaic.PureOps.Ideal.Laws
import Idealize.ShloMosaic.Lib.ValueIdx

noncomputable section

open scoped BigOperators

namespace Cert.Mp

open Idealize.ShloMosaic Idealize.ShloMosaic.ValueIdx

/-- A row of 128 numbers. -/
abbrev Row := Fin 128 → EReal
/-- A 128 × 128 weight matrix. -/
abbrev Mat := (⟨2, ![128, 128]⟩ : Shape).Idx → EReal
/-- A bias laid out as one row of 128. -/
abbrev Bias := (⟨2, ![1, 128]⟩ : Shape).Idx → EReal
/-- An array of `R` rows of 128. -/
abbrev Arr (R : Nat) := (⟨2, ![R, 128]⟩ : Shape).Idx → EReal

/-- Row `p` of an array of rows. -/
def rowOf {R : Nat} (x : Arr R) (p : Fin R) : Row := fun j => x (ix2 p j)

/-- Column `k` of the product of a row with a weight matrix. -/
def rowMul (x : Row) (W : Mat) (k : Fin 128) : EReal := ∑ j : Fin 128, x j * W (ix2 j k)

/-- The second layer on a row of pre-activations: clip at zero, multiply by `W2`, add the bias. -/
def layerOut (h : Row) (W2 : Mat) (b2 : Bias) (q : Fin 128) : EReal :=
  (∑ k : Fin 128, max (h k) (Ideal.ofBits .f32 0x00000000#32) * W2 (ix2 k q)) + b2 (ix2 0 q)

/-- The edge update's pre-activations: three products and a bias, added in the order the kernel adds them. -/
def edgeHidden (a b e : Row) (Ws Wd We : Mat) (b1 : Bias) : Row :=
  fun k => ((rowMul a Ws k + rowMul b Wd k) + rowMul e We k) + b1 (ix2 0 k)

/-- The node update's pre-activations: two products and a bias. -/
def nodeHidden (a n : Row) (Wa Wn : Mat) (b1 : Bias) : Row :=
  fun k => (rowMul a Wa k + rowMul n Wn k) + b1 (ix2 0 k)

/-- The edge update of one edge. -/
def edgeRow (a b e : Row) (Ws Wd We : Mat) (b1 : Bias) (W2 : Mat) (b2 : Bias) : Row :=
  layerOut (edgeHidden a b e Ws Wd We b1) W2 b2

/-- The node update of one node. -/
def nodeRow (a n : Row) (Wa Wn : Mat) (b1 : Bias) (W2 : Mat) (b2 : Bias) : Row :=
  layerOut (nodeHidden a n Wa Wn b1) W2 b2

/-- The edge update of every edge: row `p` of the result is the update of rows `p` of the three inputs. -/
def edgeOut {R : Nat} (xs xd xe : Arr R) (Ws Wd We : Mat) (b1 : Bias) (W2 : Mat) (b2 : Bias) : Arr R :=
  fun i => edgeRow (rowOf xs (i 0)) (rowOf xd (i 0)) (rowOf xe (i 0)) Ws Wd We b1 W2 b2 (i 1)

/-- The node update of every node. -/
def nodeOut {R : Nat} (xa xn : Arr R) (Wa Wn : Mat) (b1 : Bias) (W2 : Mat) (b2 : Bias) : Arr R :=
  fun i => nodeRow (rowOf xa (i 0)) (rowOf xn (i 0)) Wa Wn b1 W2 b2 (i 1)

theorem edgeOut_apply {R : Nat} (xs xd xe : Arr R) (Ws Wd We : Mat) (b1 : Bias) (W2 : Mat) (b2 : Bias) (p : Fin R) (q : Fin 128) :
    edgeOut xs xd xe Ws Wd We b1 W2 b2 (ix2 p q) = edgeRow (rowOf xs p) (rowOf xd p) (rowOf xe p) Ws Wd We b1 W2 b2 q := rfl

theorem nodeOut_apply {R : Nat} (xa xn : Arr R) (Wa Wn : Mat) (b1 : Bias) (W2 : Mat) (b2 : Bias) (p : Fin R) (q : Fin 128) :
    nodeOut xa xn Wa Wn b1 W2 b2 (ix2 p q) = nodeRow (rowOf xa p) (rowOf xn p) Wa Wn b1 W2 b2 q := rfl

/-- The edge update at row `p` depends on the destination rows only through row `p`. -/
theorem edgeOut_congr_row {R : Nat} (xs xd xd' xe : Arr R) (Ws Wd We : Mat) (b1 : Bias) (W2 : Mat) (b2 : Bias) (p : Fin R) (q : Fin 128)
    (h : rowOf xd p = rowOf xd' p) :
    edgeOut xs xd xe Ws Wd We b1 W2 b2 (ix2 p q) = edgeOut xs xd' xe Ws Wd We b1 W2 b2 (ix2 p q) := by
  rw [edgeOut_apply, edgeOut_apply, h]

/-- Rows `off … off + 127` of a taller weight matrix, as a 128 × 128 matrix. -/
def band {K : Nat} (W : (⟨2, ![K, 128]⟩ : Shape).Idx → EReal) (off : Nat) (h : off + 128 ≤ K) : Mat :=
  fun i => W (ix2 ⟨off + (i 0).val, by have h0 : (i 0).val < 128 := (i 0).isLt; omega⟩ (i 1))

/-- A vector of 128 laid out as one row. -/
def asRow (b : (⟨1, ![128]⟩ : Shape).Idx → EReal) : Bias := fun i => b (ix1 (i 1))

/-- A sum over 384 positions is the sum of its three thirds. -/
theorem sum_384 (f : Fin 384 → EReal) :
    ∑ k : Fin 384, f k = ((∑ j : Fin 128, f ⟨j.val, by omega⟩) + (∑ j : Fin 128, f ⟨128 + j.val, by omega⟩)) + (∑ j : Fin 128, f ⟨256 + j.val, by omega⟩) := by
  have e : (128 + 128) + 128 = 384 := rfl
  rw [← Fin.sum_congr' f e, Fin.sum_univ_add, Fin.sum_univ_add]
  refine congrArg₂ (· + ·) (congrArg₂ (· + ·) ?_ ?_) ?_ <;> refine Finset.sum_congr rfl fun j _ => congrArg f (Fin.ext ?_) <;> simp [Fin.val_castAdd, Fin.val_natAdd] <;> omega

/-- A sum over 256 positions is the sum of its two halves. -/
theorem sum_256 (f : Fin 256 → EReal) :
    ∑ k : Fin 256, f k = (∑ j : Fin 128, f ⟨j.val, by omega⟩) + (∑ j : Fin 128, f ⟨128 + j.val, by omega⟩) := by
  have e : 128 + 128 = 256 := rfl
  rw [← Fin.sum_congr' f e, Fin.sum_univ_add]
  refine congrArg₂ (· + ·) ?_ ?_ <;> refine Finset.sum_congr rfl fun j _ => congrArg f (Fin.ext ?_) <;> simp [Fin.val_castAdd, Fin.val_natAdd] <;> omega

end Cert.Mp

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.EdgeRegion.lean ====
/-
  The edge update, block by block.

  The edge update runs over 128 grid points. At point `t` it reads rows `5000·t … 5000·t + 4999` of the source rows, the
  destination rows and the edge rows, the three first-layer weight matrices, the first bias, the second weight matrix
  and the second bias (each of these six whole, at every point), and writes rows `5000·t … 5000·t + 4999` of the
  result. Over the extended reals the format changes are the identity and each matrix product into a zero accumulator
  is the exact sum of products, so entry `(p, q)` of what a point computes is the two-layer perceptron of rows `p` of
  its three row blocks at column `q`. Row `p` of block `t` is row `5000·t + p` of the array, the 128 output blocks tile
  the 640000 rows, and so the result array is the perceptron applied to every row.
-/
import proofs.«410413_j30605936951829_1_alg».proof.Proof.Gen.KernelIdeal.Frame
import proofs.«410413_j30605936951829_1_alg».proof.Proof.Spec
import proofs.«410413_j30605936951829_1_alg».proof.Proof.LibPlainProduct
import Idealize.ShloMosaic.Lib.Pipeline.Value
import Idealize.ShloMosaic.Lib.ValueLayout

set_option maxRecDepth 16384

noncomputable section

namespace Cert.KernelIdeal.EdgeRegion

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## One block: the body's result at an entry

Over the extended reals the narrowing conversions are the identity and a product into the zero accumulator is the sum
of products, so entry `(p, q)` of what the body stores is the two-layer perceptron of rows `p` of its three row blocks,
read at column `q`. -/

/-- The product's dimension numbers are those of a plain `[5000, 128] · [128, 128]` product. -/
theorem plain : Cert.Lib.PlainProduct.IsPlain dot_S5000x128_S128x128_S5000x128_1_0_0_1_n_n :=
  ⟨rfl, rfl, rfl, rfl, rfl, rfl⟩

/-- One of the body's four products, at entry `(p, q)`: `∑ k, l (p, k) · r (k, q)`. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.Lib.PlainProduct.matmul_zero_apply plain none l r p q

/-- Entry `(p, q)` of the body's result is the edge update of rows `p` of the three row blocks, at column `q`: the
    three first-layer products are added in the order the specification adds them, then the bias row, the clip at
    zero, the second product and the second bias row. -/
theorem pay_apply (x0 x1 x2 : Vec Ideal S5000x128 .f32) (x3 x4 x5 : Vec Ideal S128x128 .f32) (x6 : Vec Ideal S1x128 .f32)
    (x7 : Vec Ideal S128x128 .f32) (x8 : Vec Ideal S1x128 .f32) (p : Fin 5000) (q : Fin 128) :
    k0_pay1 x0 x1 x2 x3 x4 x5 x6 x7 x8 (ix2 p q)
      = Cert.Mp.edgeRow (Cert.Mp.rowOf x0 p) (Cert.Mp.rowOf x1 p) (Cert.Mp.rowOf x2 p) x3 x4 x5 x6 x7 x8 q := by
  unfold k0_pay1
  simp only [shapeCast_self]
  simp only [addf_apply, truncf_apply, maximumf_apply, broadcast_apply, mm_apply, broadcastTo_1b_ab_apply]
  rfl

/-! ## Where each window's block sits in its array

The grid has 128 points. At point `t` the four row windows (three inputs and the output) hold rows
`5000 t … 5000 t + 4999` of their arrays; the weight and bias windows hold their whole arrays. -/

theorem hz : (![0, 0] : Fin 2 → Nat) = fun _ => 0 :=
  funext fun a => match a with | ⟨0, _⟩ => rfl | ⟨1, _⟩ => rfl

/-- Row window 0's block index at point `t` is `(t, 0)`. -/
theorem idx0 : ∀ t : Fin cfg0.N, win0_0.index t (0 : Fin 2) = t.val ∧ win0_0.index t (1 : Fin 2) = 0 :=
  (by decide +kernel : ∀ t : Fin grid0.N, _)
/-- Row window 1's block index at point `t` is `(t, 0)`. -/
theorem idx1 : ∀ t : Fin cfg0.N, win0_1.index t (0 : Fin 2) = t.val ∧ win0_1.index t (1 : Fin 2) = 0 :=
  (by decide +kernel : ∀ t : Fin grid0.N, _)
/-- Row window 2's block index at point `t` is `(t, 0)`. -/
theorem idx2 : ∀ t : Fin cfg0.N, win0_2.index t (0 : Fin 2) = t.val ∧ win0_2.index t (1 : Fin 2) = 0 :=
  (by decide +kernel : ∀ t : Fin grid0.N, _)
/-- Row window 9's block index at point `t` is `(t, 0)`. -/
theorem idx9 : ∀ t : Fin cfg0.N, win0_9.index t (0 : Fin 2) = t.val ∧ win0_9.index t (1 : Fin 2) = 0 :=
  (by decide +kernel : ∀ t : Fin grid0.N, _)
/-- Window 3's block index is `(0, 0)` at every point. -/
theorem idx3 : ∀ t : Fin cfg0.N, win0_3.index t (0 : Fin 2) = 0 ∧ win0_3.index t (1 : Fin 2) = 0 :=
  (by decide +kernel : ∀ t : Fin grid0.N, _)
/-- Window 4's block index is `(0, 0)` at every point. -/
theorem idx4 : ∀ t : Fin cfg0.N, win0_4.index t (0 : Fin 2) = 0 ∧ win0_4.index t (1 : Fin 2) = 0 :=
  (by decide +kernel : ∀ t : Fin grid0.N, _)
/-- Window 5's block index is `(0, 0)` at every point. -/
theorem idx5 : ∀ t : Fin cfg0.N, win0_5.index t (0 : Fin 2) = 0 ∧ win0_5.index t (1 : Fin 2) = 0 :=
  (by decide +kernel : ∀ t : Fin grid0.N, _)
/-- Window 6's block index is `(0, 0)` at every point. -/
theorem idx6 : ∀ t : Fin cfg0.N, win0_6.index t (0 : Fin 2) = 0 ∧ win0_6.index t (1 : Fin 2) = 0 :=
  (by decide +kernel : ∀ t : Fin grid0.N, _)
/-- Window 7's block index is `(0, 0)` at every point. -/
theorem idx7 : ∀ t : Fin cfg0.N, win0_7.index t (0 : Fin 2) = 0 ∧ win0_7.index t (1 : Fin 2) = 0 :=
  (by decide +kernel : ∀ t : Fin grid0.N, _)
/-- Window 8's block index is `(0, 0)` at every point. -/
theorem idx8 : ∀ t : Fin cfg0.N, win0_8.index t (0 : Fin 2) = 0 ∧ win0_8.index t (1 : Fin 2) = 0 :=
  (by decide +kernel : ∀ t : Fin grid0.N, _)

/-- Row `p` of the block at point `t` is row `5000 t + p` of the array. -/
def rowIx (t : Fin cfg0.N) (p : Fin 5000) : Fin 640000 :=
  ⟨5000 * t.val + p.val, by
    have ht : t.val < 128 := lt_of_lt_of_eq t.isLt N_0
    have hp : p.val < 5000 := p.isLt
    omega⟩

/-- Entry `(p, k)` of row window 0's block at point `t` is entry `(5000 t + p, k)` of its array. -/
theorem emb_rows0 (t : Fin cfg0.N) (p : Fin 5000) (k : Fin 128) :
    ((cfg0.win 0).blk t).view.emb (ix2 p k) = (ix2 (rowIx t p) k : S640000x128.Idx) := by
  funext a; apply Fin.ext
  match a with
  | ⟨0, _⟩ => show win0_0.index t (0 : Fin 2) * 5000 + 1 * p.val = 5000 * t.val + p.val; rw [(idx0 t).1]; omega
  | ⟨1, _⟩ => show win0_0.index t (1 : Fin 2) * 128 + 1 * k.val = k.val; rw [(idx0 t).2]; omega
/-- Entry `(p, k)` of row window 1's block at point `t` is entry `(5000 t + p, k)` of its array. -/
theorem emb_rows1 (t : Fin cfg0.N) (p : Fin 5000) (k : Fin 128) :
    ((cfg0.win 1).blk t).view.emb (ix2 p k) = (ix2 (rowIx t p) k : S640000x128.Idx) := by
  funext a; apply Fin.ext
  match a with
  | ⟨0, _⟩ => show win0_1.index t (0 : Fin 2) * 5000 + 1 * p.val = 5000 * t.val + p.val; rw [(idx1 t).1]; omega
  | ⟨1, _⟩ => show win0_1.index t (1 : Fin 2) * 128 + 1 * k.val = k.val; rw [(idx1 t).2]; omega
/-- Entry `(p, k)` of row window 2's block at point `t` is entry `(5000 t + p, k)` of its array. -/
theorem emb_rows2 (t : Fin cfg0.N) (p : Fin 5000) (k : Fin 128) :
    ((cfg0.win 2).blk t).view.emb (ix2 p k) = (ix2 (rowIx t p) k : S640000x128.Idx) := by
  funext a; apply Fin.ext
  match a with
  | ⟨0, _⟩ => show win0_2.index t (0 : Fin 2) * 5000 + 1 * p.val = 5000 * t.val + p.val; rw [(idx2 t).1]; omega
  | ⟨1, _⟩ => show win0_2.index t (1 : Fin 2) * 128 + 1 * k.val = k.val; rw [(idx2 t).2]; omega
/-- Entry `(p, k)` of row window 9's block at point `t` is entry `(5000 t + p, k)` of its array. -/
theorem emb_rows9 (t : Fin cfg0.N) (p : Fin 5000) (k : Fin 128) :
    ((cfg0.win 9).blk t).view.emb (ix2 p k) = (ix2 (rowIx t p) k : S640000x128.Idx) := by
  funext a; apply Fin.ext
  match a with
  | ⟨0, _⟩ => show win0_9.index t (0 : Fin 2) * 5000 + 1 * p.val = 5000 * t.val + p.val; rw [(idx9 t).1]; omega
  | ⟨1, _⟩ => show win0_9.index t (1 : Fin 2) * 128 + 1 * k.val = k.val; rw [(idx9 t).2]; omega
/-- Weight window 3's block is its whole array, entry for entry. -/
theorem emb_mat3 (t : Fin cfg0.N) (y : S128x128.Idx) : ((cfg0.win 3).blk t).view.emb y = y := by
  funext a; apply Fin.ext
  match a with
  | ⟨0, _⟩ => show win0_3.index t (0 : Fin 2) * 128 + 1 * (y 0).val = (y 0).val; rw [(idx3 t).1]; omega
  | ⟨1, _⟩ => show win0_3.index t (1 : Fin 2) * 128 + 1 * (y 1).val = (y 1).val; rw [(idx3 t).2]; omega
/-- Weight window 4's block is its whole array, entry for entry. -/
theorem emb_mat4 (t : Fin cfg0.N) (y : S128x128.Idx) : ((cfg0.win 4).blk t).view.emb y = y := by
  funext a; apply Fin.ext
  match a with
  | ⟨0, _⟩ => show win0_4.index t (0 : Fin 2) * 128 + 1 * (y 0).val = (y 0).val; rw [(idx4 t).1]; omega
  | ⟨1, _⟩ => show win0_4.index t (1 : Fin 2) * 128 + 1 * (y 1).val = (y 1).val; rw [(idx4 t).2]; omega
/-- Weight window 5's block is its whole array, entry for entry. -/
theorem emb_mat5 (t : Fin cfg0.N) (y : S128x128.Idx) : ((cfg0.win 5).blk t).view.emb y = y := by
  funext a; apply Fin.ext
  match a with
  | ⟨0, _⟩ => show win0_5.index t (0 : Fin 2) * 128 + 1 * (y 0).val = (y 0).val; rw [(idx5 t).1]; omega
  | ⟨1, _⟩ => show win0_5.index t (1 : Fin 2) * 128 + 1 * (y 1).val = (y 1).val; rw [(idx5 t).2]; omega
/-- Weight window 7's block is its whole array, entry for entry. -/
theorem emb_mat7 (t : Fin cfg0.N) (y : S128x128.Idx) : ((cfg0.win 7).blk t).view.emb y = y := by
  funext a; apply Fin.ext
  match a with
  | ⟨0, _⟩ => show win0_7.index t (0 : Fin 2) * 128 + 1 * (y 0).val = (y 0).val; rw [(idx7 t).1]; omega
  | ⟨1, _⟩ => show win0_7.index t (1 : Fin 2) * 128 + 1 * (y 1).val = (y 1).val; rw [(idx7 t).2]; omega
/-- Bias window 6's block is its whole one-row array, entry for entry. -/
theorem emb_bias6 (t : Fin cfg0.N) (y : S1x128.Idx) : ((cfg0.win 6).blk t).view.emb y = y := by
  funext a; apply Fin.ext
  match a with
  | ⟨0, _⟩ => show win0_6.index t (0 : Fin 2) * 1 + 1 * (y 0).val = (y 0).val; rw [(idx6 t).1]; omega
  | ⟨1, _⟩ => show win0_6.index t (1 : Fin 2) * 128 + 1 * (y 1).val = (y 1).val; rw [(idx6 t).2]; omega
/-- Bias window 8's block is its whole one-row array, entry for entry. -/
theorem emb_bias8 (t : Fin cfg0.N) (y : S1x128.Idx) : ((cfg0.win 8).blk t).view.emb y = y := by
  funext a; apply Fin.ext
  match a with
  | ⟨0, _⟩ => show win0_8.index t (0 : Fin 2) * 1 + 1 * (y 0).val = (y 0).val; rw [(idx8 t).1]; omega
  | ⟨1, _⟩ => show win0_8.index t (1 : Fin 2) * 128 + 1 * (y 1).val = (y 1).val; rw [(idx8 t).2]; omega

/-! ## The input blocks as parts of the arrays the region finds -/

/-- Row `p` of input window 0's block at point `t` is row `5000 t + p` of its array. -/
theorem blk_rows0 (c : Dev nD) (t : Fin cfg0.N) (p : Fin 5000) :
    Cert.Mp.rowOf (R := 5000) (iblk0 V c 0 t) p = Cert.Mp.rowOf (R := 640000) (V c main_v0) (rowIx t p) := by
  funext k
  show V c main_v0 (((cfg0.win 0).blk t).view.emb (ix2 p k)) = V c main_v0 (ix2 (rowIx t p) k)
  rw [emb_rows0]
/-- Row `p` of input window 1's block at point `t` is row `5000 t + p` of its array. -/
theorem blk_rows1 (c : Dev nD) (t : Fin cfg0.N) (p : Fin 5000) :
    Cert.Mp.rowOf (R := 5000) (iblk0 V c 1 t) p = Cert.Mp.rowOf (R := 640000) (V c main_v1) (rowIx t p) := by
  funext k
  show V c main_v1 (((cfg0.win 1).blk t).view.emb (ix2 p k)) = V c main_v1 (ix2 (rowIx t p) k)
  rw [emb_rows1]
/-- Row `p` of input window 2's block at point `t` is row `5000 t + p` of its array. -/
theorem blk_rows2 (c : Dev nD) (t : Fin cfg0.N) (p : Fin 5000) :
    Cert.Mp.rowOf (R := 5000) (iblk0 V c 2 t) p = Cert.Mp.rowOf (R := 640000) (V c main_arg1) (rowIx t p) := by
  funext k
  show V c main_arg1 (((cfg0.win 2).blk t).view.emb (ix2 p k)) = V c main_arg1 (ix2 (rowIx t p) k)
  rw [emb_rows2]
/-- Weight window 3's block at any point is its array. -/
theorem blk_mat3 (c : Dev nD) (t : Fin cfg0.N) : (iblk0 V c 3 t : Vec Ideal S128x128 .f32) = V c main_v2 := by
  funext y
  show V c main_v2 (((cfg0.win 3).blk t).view.emb y) = V c main_v2 y
  rw [emb_mat3]
/-- Weight window 4's block at any point is its array. -/
theorem blk_mat4 (c : Dev nD) (t : Fin cfg0.N) : (iblk0 V c 4 t : Vec Ideal S128x128 .f32) = V c main_v3 := by
  funext y
  show V c main_v3 (((cfg0.win 4).blk t).view.emb y) = V c main_v3 y
  rw [emb_mat4]
/-- Weight window 5's block at any point is its array. -/
theorem blk_mat5 (c : Dev nD) (t : Fin cfg0.N) : (iblk0 V c 5 t : Vec Ideal S128x128 .f32) = V c main_v4 := by
  funext y
  show V c main_v4 (((cfg0.win 5).blk t).view.emb y) = V c main_v4 y
  rw [emb_mat5]
/-- Weight window 7's block at any point is its array. -/
theorem blk_mat7 (c : Dev nD) (t : Fin cfg0.N) : (iblk0 V c 7 t : Vec Ideal S128x128 .f32) = V c main_arg6 := by
  funext y
  show V c main_arg6 (((cfg0.win 7).blk t).view.emb y) = V c main_arg6 y
  rw [emb_mat7]
/-- Bias window 6's block at any point is its array. -/
theorem blk_bias6 (c : Dev nD) (t : Fin cfg0.N) : (iblk0 V c 6 t : Vec Ideal S1x128 .f32) = V c main_v5 := by
  funext y
  show V c main_v5 (((cfg0.win 6).blk t).view.emb y) = V c main_v5 y
  rw [emb_bias6]
/-- Bias window 8's block at any point is its array. -/
theorem blk_bias8 (c : Dev nD) (t : Fin cfg0.N) : (iblk0 V c 8 t : Vec Ideal S1x128 .f32) = V c main_v6 := by
  funext y
  show V c main_v6 (((cfg0.win 8).blk t).view.emb y) = V c main_v6 y
  rw [emb_bias8]

/-! ## What one point writes back, and the whole array -/

/-- What point `t` writes back to the output array is block `t` of the edge update of the input arrays: entry
    `(p, q)` of the body's result is the update of rows `p` of the row blocks, which are rows `5000 t + p` of the
    row arrays, and the output block's entry `(p, q)` sits at `(5000 t + p, q)` of the output array. -/
theorem flushed_eq (c : Dev nD) (t : Fin cfg0.N) :
    (dat0 (F := Ideal) V c).flushed 9 t
      = ((cfg0.win 9).blk t).view.read (Elt Ideal)
          (Cert.Mp.edgeOut (R := 640000) (V c main_v0) (V c main_v1) (V c main_arg1) (V c main_v2) (V c main_v3) (V c main_v4)
          (V c main_v5) (V c main_arg6) (V c main_v6)) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p q)
      = Cert.Mp.edgeOut (R := 640000) (V c main_v0) (V c main_v1) (V c main_arg1) (V c main_v2) (V c main_v3) (V c main_v4)
          (V c main_v5) (V c main_arg6) (V c main_v6) (((cfg0.win 9).blk t).view.emb (ix2 p q))
  refine (pay_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  rw [emb_rows9 t p q, Cert.Mp.edgeOut_apply, blk_rows0 V c t p, blk_rows1 V c t p, blk_rows2 V c t p,
    blk_mat3 V c t, blk_mat4 V c t, blk_mat5 V c t, blk_bias6 V c t, blk_mat7 V c t, blk_bias8 V c t]

/-- An entry of the output array is in point `t`'s block iff each coordinate is in the block's range on its axis. -/
theorem mem_blk (t : Fin cfg0.N) (i : S640000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v7).slice (win0_9.rect t)).set ↔ _
  rw [View.set_slice_whole, Rect.mem_set_unit]
  exact Iff.rfl

/-- The 128 blocks tile the output array: row `r` lies in the block of point `r / 5000`, which writes back. -/
theorem cover (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  have ht : (i 0).val / 5000 < grid0.N := by rw [N_0]; omega
  have e0 : win0_9.index ⟨(i 0).val / 5000, ht⟩ (0 : Fin 2) = (i 0).val / 5000 := (idx9 ⟨(i 0).val / 5000, ht⟩).1
  have e1 : win0_9.index ⟨(i 0).val / 5000, ht⟩ (1 : Fin 2) = 0 := (idx9 ⟨(i 0).val / 5000, ht⟩).2
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; omega
  | ⟨1, _⟩ =>
    show win0_9.index ⟨(i 0).val / 5000, ht⟩ (1 : Fin 2) * 128 ≤ (i 1).val
      ∧ (i 1).val < win0_9.index ⟨(i 0).val / 5000, ht⟩ (1 : Fin 2) * 128 + 128
    rw [e1]; omega

/-- After the region the output array is the edge update of the input arrays the region found. -/
theorem value (c : Dev nD) :
    (dat0 (F := Ideal) V c).arrAt 9 cfg0.N
      = Cert.Mp.edgeOut (R := 640000) (V c main_v0) (V c main_v1) (V c main_arg1) (V c main_v2) (V c main_v3) (V c main_v4)
          (V c main_v5) (V c main_arg6) (V c main_v6) :=
  (dat0 (F := Ideal) V c).arrAt_eq_of_cover 9 _ (fun t _ => flushed_eq V c t) cover

end Cert.KernelIdeal.EdgeRegion

end
-- ==== Proof.NodeRegion.lean ====
/-
  The node update, block by block.

  The node update runs over ten grid points. At point `t` it reads rows `5000·t … 5000·t + 4999` of the summed messages
  and of the node features, the two first-layer weight matrices, the first bias, the second weight matrix and the second
  bias (each of these five whole, at every point), and writes rows `5000·t … 5000·t + 4999` of the result. Over the
  extended reals the format changes are the identity and each matrix product into a zero accumulator is the exact sum of
  products, so entry `(p, q)` of what a point computes is the two-layer perceptron of rows `p` of its two row blocks at
  column `q`. Row `p` of block `t` is row `5000·t + p` of the array, the ten output blocks tile the 50000 rows, and so
  the result array is the perceptron applied to every row.
-/
import proofs.«410413_j30605936951829_1_alg».proof.Proof.Gen.KernelIdeal.Frame
import proofs.«410413_j30605936951829_1_alg».proof.Proof.Spec
import proofs.«410413_j30605936951829_1_alg».proof.Proof.LibPlainProduct
import Idealize.ShloMosaic.Lib.Pipeline.Value
import Idealize.ShloMosaic.Lib.ValueLayout

set_option maxRecDepth 16384

noncomputable section

namespace Cert.KernelIdeal.NodeRegion

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## One entry of what a grid point computes -/

/-- The three products contract the left operand's columns with the right operand's rows and have no batch axis. -/
theorem product_isPlain : Cert.Lib.PlainProduct.IsPlain dot_S5000x128_S128x128_S5000x128_1_0_0_1_n_n :=
  ⟨rfl, rfl, rfl, rfl, rfl, rfl⟩

/-- Entry `(p, q)` of the block a point computes from a block `x0` of summed messages, a block `x1` of node features,
    the weights and the biases: the second layer, at column `q`, of the clipped first layer of rows `p` of `x0` and `x1`.
    The outer sum is the second product, each of its terms holds the maximum with the zero word of the first layer's
    entry `(p, k)`, and that entry is the two first products and the first bias added in the order the body adds them. -/
theorem payload_apply (x0 x1 : Vec Ideal S5000x128 .f32) (w0 w1 : Vec Ideal S128x128 .f32) (b1 : Vec Ideal S1x128 .f32)
    (w2 : Vec Ideal S128x128 .f32) (b2 : Vec Ideal S1x128 .f32) (p : Fin 5000) (q : Fin 128) :
    k1_pay1 (F := Ideal) x0 x1 w0 w1 b1 w2 b2 (ix2 p q)
      = Cert.Mp.nodeRow (Cert.Mp.rowOf x0 p) (Cert.Mp.rowOf x1 p) w0 w1 b1 w2 b2 q := by
  unfold k1_pay1
  simp only [shapeCast_self]
  unfold Cert.Mp.nodeRow Cert.Mp.layerOut
  -- the last addition: the second product plus the second bias, whose one row every row of the block reads
  refine (addf_apply _ _ _).trans ?_
  refine congrArg₂ (· + ·) ?_ (broadcastTo_1b_ab_apply b2 _ p q)
  -- the second product at (p, q) is the sum over k of hidden (p, k) · W2 (k, q)
  refine (Cert.Lib.PlainProduct.matmul_zero_apply product_isPlain none _ _ p q).trans ?_
  refine Finset.sum_congr rfl fun k _ => ?_
  refine congrArg₂ (· * ·) ?_ rfl
  -- the hidden entry: the narrowing is the identity, the clip is the maximum with the zero word
  refine (truncf_apply (φ := .f32) (ψ := .bf16) _ bitsLt_bf16_f32 (ix2 p k)).trans ?_
  refine (maximumf_apply _ _ _).trans ?_
  refine congrArg₂ max ?_ rfl
  unfold Cert.Mp.nodeHidden
  -- the pre-activation: (messages · Wa + features · Wn) + first bias
  refine (addf_apply _ _ _).trans ?_
  refine congrArg₂ (· + ·) ?_ (broadcastTo_1b_ab_apply b1 _ p k)
  refine (addf_apply _ _ _).trans ?_
  refine congrArg₂ (· + ·) ?_ ?_
  · exact Cert.Lib.PlainProduct.matmul_zero_apply product_isPlain none _ _ p k
  · exact Cert.Lib.PlainProduct.matmul_zero_apply product_isPlain none _ _ p k

/-! ## Each window's block as a part of its array -/

/-- The body reads and writes each staging buffer from its origin. -/
theorem zero_offsets : (![0, 0] : Fin 2 → Nat) = fun _ => 0 := funext fun a => by fin_cases a <;> rfl

/-- The block indices at point `t`: the two row inputs and the output are at block `(t, 0)`; the three weight matrices
    and the two biases are at block `(0, 0)`, their whole array. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the summed messages' block at point `t` is row `5000·t + p` of the summed messages. -/
theorem messages_block_row (c : Dev nD) (t : Fin cfg1.N) (p : Fin 5000) (P : Fin 50000) (hP : P.val = t.val * 5000 + p.val) :
    Cert.Mp.rowOf (R := 5000) (iblk1 (F := Ideal) V c 0 t) p = Cert.Mp.rowOf (R := 50000) (V c main_v10) P := by
  obtain ⟨e0, e1, -⟩ := block_indices t
  funext j
  show V c main_v10 (((cfg1.win 0).blk t).view.emb (ix2 p j)) = V c main_v10 (ix2 P j)
  refine congrArg (V c main_v10) (funext fun a => Fin.ext ?_)
  match a with
  | ⟨0, _⟩ => show win1_0.index t (0 : Fin 2) * 5000 + 1 * p.val = P.val; rw [e0, hP]; omega
  | ⟨1, _⟩ => show win1_0.index t (1 : Fin 2) * 128 + 1 * j.val = j.val; rw [e1]; omega

/-- Row `p` of the node features' block at point `t` is row `5000·t + p` of the node features. -/
theorem features_block_row (c : Dev nD) (t : Fin cfg1.N) (p : Fin 5000) (P : Fin 50000) (hP : P.val = t.val * 5000 + p.val) :
    Cert.Mp.rowOf (R := 5000) (iblk1 (F := Ideal) V c 1 t) p = Cert.Mp.rowOf (R := 50000) (V c main_arg0) P := by
  obtain ⟨-, -, e0, e1, -⟩ := block_indices t
  funext j
  show V c main_arg0 (((cfg1.win 1).blk t).view.emb (ix2 p j)) = V c main_arg0 (ix2 P j)
  refine congrArg (V c main_arg0) (funext fun a => Fin.ext ?_)
  match a with
  | ⟨0, _⟩ => show win1_1.index t (0 : Fin 2) * 5000 + 1 * p.val = P.val; rw [e0, hP]; omega
  | ⟨1, _⟩ => show win1_1.index t (1 : Fin 2) * 128 + 1 * j.val = j.val; rw [e1]; omega

/-- The block of the weight matrix that meets the summed messages is the whole matrix, at every point. -/
theorem messageWeight_block (c : Dev nD) (t : Fin cfg1.N) :
    (iblk1 (F := Ideal) V c 2 t : Vec Ideal S128x128 .f32) = V c main_v11 := by
  obtain ⟨-, -, -, -, e0, e1, -⟩ := block_indices t
  funext y
  show V c main_v11 (((cfg1.win 2).blk t).view.emb y) = V c main_v11 y
  refine congrArg (V c main_v11) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The block of the weight matrix that meets the node features is the whole matrix. -/
theorem featureWeight_block (c : Dev nD) (t : Fin cfg1.N) :
    (iblk1 (F := Ideal) V c 3 t : Vec Ideal S128x128 .f32) = V c main_v12 := by
  obtain ⟨-, -, -, -, -, -, e0, e1, -⟩ := block_indices t
  funext y
  show V c main_v12 (((cfg1.win 3).blk t).view.emb y) = V c main_v12 y
  refine congrArg (V c main_v12) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The first bias's block is its one row. -/
theorem firstBias_block (c : Dev nD) (t : Fin cfg1.N) :
    (iblk1 (F := Ideal) V c 4 t : Vec Ideal S1x128 .f32) = V c main_v13 := by
  obtain ⟨-, -, -, -, -, -, -, -, e0, e1, -⟩ := block_indices t
  funext y
  show V c main_v13 (((cfg1.win 4).blk t).view.emb y) = V c main_v13 y
  refine congrArg (V c main_v13) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The second layer's weight block is the whole matrix. -/
theorem secondWeight_block (c : Dev nD) (t : Fin cfg1.N) :
    (iblk1 (F := Ideal) V c 5 t : Vec Ideal S128x128 .f32) = V c main_arg10 := by
  obtain ⟨-, -, -, -, -, -, -, -, -, -, e0, e1, -⟩ := block_indices t
  funext y
  show V c main_arg10 (((cfg1.win 5).blk t).view.emb y) = V c main_arg10 y
  refine congrArg (V c main_arg10) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The second bias's block is its one row. -/
theorem secondBias_block (c : Dev nD) (t : Fin cfg1.N) :
    (iblk1 (F := Ideal) V c 6 t : Vec Ideal S1x128 .f32) = V c main_v14 := by
  obtain ⟨-, -, -, -, -, -, -, -, -, -, -, -, e0, e1, -⟩ := block_indices t
  funext y
  show V c main_v14 (((cfg1.win 6).blk t).view.emb y) = V c main_v14 y
  refine congrArg (V c main_v14) (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-! ## What a grid point writes back -/

/-- What point `t` writes back is block `t` of the node update of the whole arrays: entry `(p, q)` of the block is the
    perceptron of rows `p` of the point's two row blocks, which are rows `5000·t + p` of the two arrays, and entry
    `(p, q)` of the output's block `t` is entry `(5000·t + p, q)` of the array. -/
theorem written_back (c : Dev nD) (t : Fin cfg1.N) :
    (dat1 (F := Ideal) V c).flushed 7 t
      = ((cfg1.win 7).blk t).view.read (Elt Ideal)
          (Cert.Mp.nodeOut (R := 50000) (V c main_v10) (V c main_arg0) (V c main_v11) (V c main_v12) (V c main_v13) (V c main_arg10)
            (V c main_v14)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  have ht : t.val < 10 := Nat.lt_of_lt_of_eq t.isLt N_1
  have hp : p.val < 5000 := p.isLt
  obtain ⟨-, -, -, -, -, -, -, -, -, -, -, -, -, -, e0, e1⟩ := block_indices t
  -- the block is not cut short: an index of the moved part is the same index of the staging buffer
  have hx : (win1 7).xinj (grid1.coords t) (ix2 p q) = ix2 p q :=
    funext fun a => Fin.ext (by match a with | ⟨0, _⟩ => rfl | ⟨1, _⟩ => rfl)
  refine (congrArg (k1_pay1 (F := Ideal) (iblk1 V c 0 t) (iblk1 V c 1 t) (iblk1 V c 2 t) (iblk1 V c 3 t) (iblk1 V c 4 t)
    (iblk1 V c 5 t) (iblk1 V c 6 t)) hx).trans ?_
  refine (payload_apply (iblk1 V c 0 t) (iblk1 V c 1 t) (iblk1 V c 2 t) (iblk1 V c 3 t) (iblk1 V c 4 t) (iblk1 V c 5 t)
    (iblk1 V c 6 t) p q).trans ?_
  rw [messages_block_row V c t p ⟨t.val * 5000 + p.val, by omega⟩ rfl,
    features_block_row V c t p ⟨t.val * 5000 + p.val, by omega⟩ rfl,
    messageWeight_block V c t, featureWeight_block V c t, firstBias_block V c t, secondWeight_block V c t,
    secondBias_block V c t]
  -- entry (p, q) of the output's block t sits at (5000·t + p, q) in the array
  have he : ((cfg1.win 7).blk t).view.emb (ix2 p q)
      = (ix2 (⟨t.val * 5000 + p.val, by omega⟩ : Fin 50000) q : S50000x128.Idx) :=
    funext fun a => Fin.ext (by
      match a with
      | ⟨0, _⟩ => show win1_7.index t (0 : Fin 2) * 5000 + 1 * p.val = t.val * 5000 + p.val; rw [e0]; omega
      | ⟨1, _⟩ => show win1_7.index t (1 : Fin 2) * 128 + 1 * q.val = q.val; rw [e1]; omega)
  show _ = Cert.Mp.nodeOut (R := 50000) (V c main_v10) (V c main_arg0) (V c main_v11) (V c main_v12) (V c main_v13)
    (V c main_arg10) (V c main_v14) (((cfg1.win 7).blk t).view.emb (ix2 p q))
  rw [he]
  rfl

/-! ## The ten blocks tile the array -/

/-- An index of the result array is in point `t`'s block iff each coordinate is in the block's range on its axis. -/
theorem mem_out_block (t : Fin cfg1.N) (i : S50000x128.Idx) :
    i ∈ ((cfg1.win 7).blk t).view.set
      ↔ ∀ a : Fin 2, win1_7.index t a * S5000x128.size a ≤ (i a).val
          ∧ (i a).val < win1_7.index t a * S5000x128.size a + S5000x128.size a := by
  show i ∈ ((View.whole main_v15).slice (win1_7.rect t)).set ↔ _
  rw [View.set_slice_whole, Rect.mem_set_unit]
  exact Iff.rfl

/-- Row `r` of the result is in the block of point `r / 5000`, and every point writes its block back. -/
theorem out_blocks_cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1⟩ := block_indices t
  refine ⟨t, flush1_7 t, ?_⟩
  rw [mem_out_block]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-! ## The result array -/

/-- After the region the result array is the node update of the region's input arrays: every point writes back its block
    of that one function, and the blocks cover the array. -/
theorem value (c : Dev nD) :
    (dat1 (F := Ideal) V c).arrAt 7 cfg1.N
      = Cert.Mp.nodeOut (R := 50000) (V c main_v10) (V c main_arg0) (V c main_v11) (V c main_v12) (V c main_v13) (V c main_arg10)
          (V c main_v14) := by
  exact (dat1 (F := Ideal) V c).arrAt_eq_of_cover 7 _ (fun t _ => written_back V c t) out_blocks_cover

end Cert.KernelIdeal.NodeRegion

end
-- ==== Proof.TakeFill.lean ====
/-
  A guarded row lookup agrees with the plain one where the index is a row number.

  The kernel program looks rows of the node table up by signed 32-bit indices: an index below zero has the table's
  height added, the row at the resulting position is fetched, and the fetched row is kept only where that position lies
  in `0 … 49999`; elsewhere a fixed fill word is put. For an index that already lies in `0 … 49999` nothing is added,
  the two comparisons hold, and the kept row is the fetched one.
-/
import proofs.«410413_j30605936951829_1_alg».proof.Proof.Gen.KernelIdeal
import Idealize.ShloMosaic.Lib.ValueIdx
import Idealize.ShloMosaic.Lib.StableHlo.Predicate

noncomputable section

namespace Cert.KernelIdeal.TakeFill

open Idealize.ShloMosaic Idealize.ShloMosaic.ValueIdx
open Cert.KernelIdeal Cert.KernelIdeal.Facts₀ Cert.KernelIdeal.Facts

variable {F : FTy → Type} [FloatOps F]

/-- The index column of a row lookup: an index below zero counts from the table's end (50000 is added to it), and the
    vector of 640000 indices is laid out as a column. -/
def wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 50000#32))) idx)

/-- Per looked-up row, whether its index names a row of the table: `0 ≤ index ≤ 49999`. -/
def inTable (idx : IVec S640000 32) : IVec S640000 1 :=
  Host.reduce IntOp.andi
    (andi (cmpi .sge (wrapCol idx) (broadcastInDim S640000x1 ![] bcast_S_S640000x1 (constantI S_ 32 0#32)))
      (cmpi .sle (wrapCol idx) (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- The guarded row lookup: row `p` of the result is the table's row at index `p` where that index names a row of the
    table, and a fixed fill word elsewhere. -/
def takeFill (x : FVec F S50000x128 .f32) (idx : IVec S640000 32) : FVec F S640000x128 .f32 :=
  select (broadcastInDim S640000x128 ![0] bcast_S640000_S640000x128_0 (inTable idx))
    (Host.gather gather_S50000x128_S640000x1_S640000x128_1_0_n_n_0_1_1128 x (wrapCol idx))
    (broadcastInDim S640000x128 ![] bcast_S_S640000x128 (constant S_ .f32 0x7FC00000#32))

/-! ## One word: an index that is a row number passes both bounds and is not wrapped -/

/-- A word whose signed value lies in `0 … 49999` is at least the zero word, at most the word 49999, and not below
    the zero word. -/
theorem word_inTable (w : BitVec 32) (h0 : 0 ≤ w.toInt) (h1 : w.toInt < 50000) :
    IntOp.cmpi .sge w 0#32 = 1#1 ∧ IntOp.cmpi .sle w 49999#32 = 1#1 ∧ IntOp.cmpi .slt w 0#32 = 0#1 := by
  have z : (0#32 : BitVec 32).toInt = 0 := by decide
  have t : (49999#32 : BitVec 32).toInt = 49999 := by decide
  refine ⟨IntOp.cmpi_sge.2 (by rw [z]; exact h0), IntOp.cmpi_sle.2 (by rw [t]; omega), eq_zero_of_ne_one fun h => ?_⟩
  have := IntOp.cmpi_slt.1 h
  rw [z] at this
  omega

/-! ## The conjunction over a column of one entry -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- The conjunction along the second axis of a one-column mask, from the initial value 1, is 1 at row `p` as soon as the
    mask's one entry of that row is. -/
theorem reduce_col_one (m : IVec S640000x1 1) (p : Fin 640000) (hm : m (ix2 p 0) = 1#1) :
    Host.reduce IntOp.andi m (constantI S_ 1 1#1) reducesTo_S640000x1_S640000_d1 h_S_ (ix1 p) = 1#1 := by
  rw [Host.reduce_eq_foldl]
  refine foldl_andi_ones m _ fun i hi => ?_
  have hd : reducesTo_S640000x1_S640000_d1.drop i = ix1 p := of_decide_eq_true (List.mem_filter.1 hi).2
  have e0 : ((reducesTo_S640000x1_S640000_d1.drop i 0 : Fin _) : Nat) = i 0 :=
    Shape.ReducesTo.drop_apply_val_of_eq reducesTo_S640000x1_S640000_d1 i 0 0
  have hp : (i 0 : Nat) = p.val := by rw [← e0, hd]
  have hq : (i 1 : Nat) = 0 := by have := idx2_lt1 i; omega
  have hi2 : i = ix2 p 0 := by
    funext a
    match a with
    | ⟨0, _⟩ => exact Fin.ext hp
    | ⟨1, _⟩ => exact Fin.ext hq
  rw [hi2]; exact hm

/-! ## The printed operations read at one row -/

/-- A vector laid out as a column reads, at row `p`, the vector's entry `p`. -/
theorem col_apply {α : Type} (v : S640000.Idx → α) (p : Fin 640000) :
    broadcastInDim S640000x1 ![0] bcast_S640000_S640000x1_0 v (ix2 p 0) = v (ix1 p) := by
  unfold broadcastInDim
  refine congrArg v (funext fun a => ?_)
  match a with
  | ⟨0, _⟩ => rfl

/-- A vector copied into every column of a 128-column rectangle reads, at row `p` and any column, the vector's entry `p`. -/
theorem rows_apply {α : Type} (v : S640000.Idx → α) (p : Fin 640000) (q : Fin 128) :
    broadcastInDim S640000x128 ![0] bcast_S640000_S640000x128_0 v (ix2 p q) = v (ix1 p) := by
  unfold broadcastInDim
  refine congrArg v (funext fun a => ?_)
  match a with
  | ⟨0, _⟩ => rfl

/-- An index that is a row number is not wrapped: the column holds it unchanged. -/
theorem wrapCol_apply (idx : IVec S640000 32) (p : Fin 640000) (h0 : 0 ≤ (idx (ix1 p)).toInt)
    (h1 : (idx (ix1 p)).toInt < 50000) : wrapCol idx (ix2 p 0) = idx (ix1 p) := by
  unfold wrapCol
  rw [col_apply, select_apply]
  show Scalar.select (IntOp.cmpi .slt (idx (ix1 p)) 0#32) _ _ = _
  rw [(word_inTable _ h0 h1).2.2, select_zero]

/-- At such a row both bound tests on the column's entry succeed, and so does their conjunction. -/
theorem bounds_apply (idx : IVec S640000 32) (p : Fin 640000) (h0 : 0 ≤ (idx (ix1 p)).toInt)
    (h1 : (idx (ix1 p)).toInt < 50000) :
    andi (cmpi .sge (wrapCol idx) (broadcastInDim S640000x1 ![] bcast_S_S640000x1 (constantI S_ 32 0#32)))
      (cmpi .sle (wrapCol idx) (broadcastInDim S640000x1 ![0, 1] bcast_S1x1_S640000x1_0_1
        (broadcastInDim S1x1 ![1] bcast_S1_S1x1_1 (constantI S1 32 49999#32)))) (ix2 p 0) = 1#1 := by
  show IntOp.andi (IntOp.cmpi .sge (wrapCol idx (ix2 p 0)) 0#32) (IntOp.cmpi .sle (wrapCol idx (ix2 p 0)) 49999#32) = 1#1
  rw [wrapCol_apply idx p h0 h1]
  exact IntOp.andi_eq_one.2 ⟨(word_inTable _ h0 h1).1, (word_inTable _ h0 h1).2.1⟩

/-- So the row's flag is set. -/
theorem inTable_apply (idx : IVec S640000 32) (p : Fin 640000) (h0 : 0 ≤ (idx (ix1 p)).toInt)
    (h1 : (idx (ix1 p)).toInt < 50000) : inTable idx (ix1 p) = 1#1 :=
  reduce_col_one _ p (bounds_apply idx p h0 h1)

/-- Where the index is a row number of the table, the guarded lookup is the plain lookup. -/
theorem takeFill_apply_of_inRange (x : FVec F S50000x128 .f32) (idx : IVec S640000 32) (p : Fin 640000)
    (h0 : 0 ≤ (idx (ix1 p)).toInt) (h1 : (idx (ix1 p)).toInt < 50000) (q : Fin 128) :
    takeFill x idx (ix2 p q)
      = Host.gather gather_S50000x128_S640000x1_S640000x128_1_0_n_n_0_1_1128 x (wrapCol idx) (ix2 p q) := by
  unfold takeFill
  rw [select_apply, rows_apply, inTable_apply idx p h0 h1, select_one]

end Cert.KernelIdeal.TakeFill

end
-- ==== Proof.HostValues.lean ====
/-
  What the two kernel regions are entered with, as functions of the launch memory.

  Between the launch and the first kernel the program looks the node table's rows up twice (by the source and by the
  destination indices), cuts the first weight matrix into its three bands of 128 rows and lays the two bias vectors
  out as rows. Between the two kernels it adds every edge's update into its destination node's row, cuts the node
  update's first weight matrix into two bands and lays two more bias vectors out as rows. Each array a kernel reads is
  named here by that term.
-/
import proofs.«410413_j30605936951829_1_alg».proof.Proof.Gen.KernelIdeal.Frame
import proofs.«410413_j30605936951829_1_alg».proof.Proof.Spec
import proofs.«410413_j30605936951829_1_alg».proof.Proof.TakeFill
import Idealize.ShloMosaic.Lib.StableHlo.Run
import Idealize.ShloMosaic.Lib.ValueLayout
import Idealize.ShloMosaic.Lib.Pipeline.Value

set_option maxRecDepth 16384

noncomputable section

namespace Cert.KernelIdeal.HostValues

open Idealize.ShloMosaic Idealize.ShloMosaic.TcCoe Idealize.SL.Sem Idealize.ShloMosaic.StableHlo Idealize.ShloMosaic.ValueIdx
open Cert.KernelIdeal Cert.KernelIdeal.Gen Cert.KernelIdeal.Facts₀

/-! ## Contents moved between a buffer's own type and the type of the value it holds

A typed reference carries the equation between its buffer's type and its value's type; contents cross it by a
transport that changes nothing. -/

theorem ofBuf_toBuf {sig : RefSig} {Val : EltTy → Type} {T : BufTy} (x : TRef sig T) (v : T.Contents Val) :
    x.ofBuf (x.toBuf v) = v := by
  obtain ⟨r, rfl, _, _⟩ := x; rfl

theorem ofBuf_eq {sig : RefSig} {Val : EltTy → Type} {T : BufTy} (x : TRef sig T) (v : x.ref.ty.Contents Val)
    (v' : T.Contents Val) (h : HEq v v') : x.ofBuf v = v' := eq_of_heq ((cast_heq _ _).trans h)

theorem toBuf_eq {sig : RefSig} {Val : EltTy → Type} {T : BufTy} (x : TRef sig T) (v : T.Contents Val)
    (v' : x.ref.ty.Contents Val) (h : HEq v v') : x.toBuf v = v' := eq_of_heq ((cast_heq _ _).trans h)

/-! ## Two layout facts -/

/-- A cut of 128 consecutive rows out of a taller matrix is that band of it. -/
theorem slice_band {K : Nat} (off : Nat) (X : (⟨2, ![K, 128]⟩ : Shape).Idx → EReal)
    (h : (⟨2, ![K, 128]⟩ : Shape).Slices ![off, 0] ⟨2, ![128, 128]⟩) (hb : off + 128 ≤ K) :
    extractStridedSlice ⟨2, ![128, 128]⟩ ![off, 0] X h = Cert.Mp.band X off hb := by
  funext i
  obtain ⟨p, q, rfl⟩ : ∃ (p : Fin 128) (q : Fin 128), i = ix2 p q := ⟨i 0, i 1, eq_ix2 i⟩
  rw [slice2_axis0_eq]
  rfl

/-- A vector of 128 recast as one row of 128 reads, at column `q`, the vector's entry `q`. -/
theorem cast_asRow (b : (⟨1, ![128]⟩ : Shape).Idx → EReal) (h : (⟨1, ![128]⟩ : Shape).ShapeCasts ⟨2, ![1, 128]⟩) :
    shapeCast ⟨2, ![1, 128]⟩ b h = Cert.Mp.asRow b := by
  funext i
  refine shapeCast_apply b h i (ix1 (i 1)) ?_
  rw [Shape.rowMajor_val_one, Shape.rowMajor_val_two]
  have h0 : (i 0).val < 1 := (i 0).isLt
  show (i 1).val = (i 0).val * 128 + (i 1).val
  omega

variable (m : (ℓ : Loc nD τ sig) → Buf (Elt Ideal) ℓ) (ρ : Dev nD → PrngReg)

/-! ## The first kernel's arrays -/

set_option maxHeartbeats 4000000 in
/-- The source rows: the node table looked up by the source indices. -/
theorem V3_main_v0 (c : Dev nD) :
    V3 m ρ c main_v0
      = TakeFill.takeFill (F := Ideal) (m ((c : Thread nD τ).loc main_arg0)) (m ((c : Thread nD τ).loc main_arg2)) := by
  unfold V3 W3 W2 W1
  after_results_simp
  simp only [ofBuf_toBuf]
  rw [ofBuf_eq _ _ (m ((c : Thread nD τ).loc main_arg2)) HEq.rfl, ofBuf_eq _ _ (m ((c : Thread nD τ).loc main_arg0)) HEq.rfl]
  exact toBuf_eq _ _ _ (heq_of_eq rfl)

set_option maxHeartbeats 4000000 in
/-- The destination rows: the node table looked up by the destination indices. -/
theorem V3_main_v1 (c : Dev nD) :
    V3 m ρ c main_v1
      = TakeFill.takeFill (F := Ideal) (m ((c : Thread nD τ).loc main_arg0)) (m ((c : Thread nD τ).loc main_arg3)) := by
  unfold V3 W3 W2 W1
  after_results_simp
  simp only [ofBuf_toBuf]
  rw [ofBuf_eq _ _ (m ((c : Thread nD τ).loc main_arg3)) HEq.rfl, ofBuf_eq _ _ (m ((c : Thread nD τ).loc main_arg0)) HEq.rfl]
  exact toBuf_eq _ _ _ (heq_of_eq rfl)

/-- The edge features, as launched. -/
theorem V3_main_arg1 (c : Dev nD) : V3 m ρ c main_arg1 = m ((c : Thread nD τ).loc main_arg1) := by
  unfold V3 W3 W2 W1
  after_results_simp <;> rfl

/-- The first weight matrix's band for the source rows. -/
theorem V3_main_v2 (c : Dev nD) :
    V3 m ρ c main_v2 = Cert.Mp.band (K := 384) (m ((c : Thread nD τ).loc main_arg4)) 0 (by decide) := by
  unfold V3 W3 W2 W1
  after_results_simp
  exact slice_band 0 _ _ _

/-- Its band for the destination rows. -/
theorem V3_main_v3 (c : Dev nD) :
    V3 m ρ c main_v3 = Cert.Mp.band (K := 384) (m ((c : Thread nD τ).loc main_arg4)) 128 (by decide) := by
  unfold V3 W3 W2 W1
  after_results_simp
  exact slice_band 128 _ _ _

/-- Its band for the edge rows. -/
theorem V3_main_v4 (c : Dev nD) :
    V3 m ρ c main_v4 = Cert.Mp.band (K := 384) (m ((c : Thread nD τ).loc main_arg4)) 256 (by decide) := by
  unfold V3 W3 W2 W1
  after_results_simp
  exact slice_band 256 _ _ _

/-- The edge update's first bias, as a row. -/
theorem V3_main_v5 (c : Dev nD) : V3 m ρ c main_v5 = Cert.Mp.asRow (m ((c : Thread nD τ).loc main_arg5)) := by
  unfold V3 W3 W2 W1
  after_results_simp
  exact cast_asRow _ _

/-- The edge update's second weight matrix, as launched. -/
theorem V3_main_arg6 (c : Dev nD) : V3 m ρ c main_arg6 = m ((c : Thread nD τ).loc main_arg6) := by
  unfold V3 W3 W2 W1
  after_results_simp <;> rfl

/-- The edge update's second bias, as a row. -/
theorem V3_main_v6 (c : Dev nD) : V3 m ρ c main_v6 = Cert.Mp.asRow (m ((c : Thread nD τ).loc main_arg7)) := by
  unfold V3 W3 W2 W1
  after_results_simp
  exact cast_asRow _ _

/-! ## The second kernel's arrays -/

/-- An argument the first kernel does not write is, at its exit, as launched. -/
theorem W4_main_arg3 (c : Dev nD) : W4 m ρ c (Proc.devRef .tc main_arg3) = m ((c : Thread nD τ).loc main_arg3) :=
  (W4_of_ne m ρ c main_arg3 (by decide)).trans (by unfold W3 W2 W1; after_results_simp <;> rfl)

theorem W4_main_arg8 (c : Dev nD) : W4 m ρ c (Proc.devRef .tc main_arg8) = m ((c : Thread nD τ).loc main_arg8) :=
  (W4_of_ne m ρ c main_arg8 (by decide)).trans (by unfold W3 W2 W1; after_results_simp <;> rfl)

theorem W4_main_arg9 (c : Dev nD) : W4 m ρ c (Proc.devRef .tc main_arg9) = m ((c : Thread nD τ).loc main_arg9) :=
  (W4_of_ne m ρ c main_arg9 (by decide)).trans (by unfold W3 W2 W1; after_results_simp <;> rfl)

theorem W4_main_arg11 (c : Dev nD) : W4 m ρ c (Proc.devRef .tc main_arg11) = m ((c : Thread nD τ).loc main_arg11) :=
  (W4_of_ne m ρ c main_arg11 (by decide)).trans (by unfold W3 W2 W1; after_results_simp <;> rfl)

/-- The node features, as launched (the first kernel reads the node table only through the two lookups). -/
theorem V5_main_arg0 (c : Dev nD) : V5 m ρ c main_arg0 = m ((c : Thread nD τ).loc main_arg0) := by
  unfold V5 W5
  after_results_simp
  exact (W4_of_ne m ρ c main_arg0 (by decide)).trans (by unfold W3 W2 W1; after_results_simp <;> rfl)

/-- The node update's second weight matrix, as launched. -/
theorem V5_main_arg10 (c : Dev nD) : V5 m ρ c main_arg10 = m ((c : Thread nD τ).loc main_arg10) := by
  unfold V5 W5
  after_results_simp
  exact (W4_of_ne m ρ c main_arg10 (by decide)).trans (by unfold W3 W2 W1; after_results_simp <;> rfl)

/-- The summed messages: every edge's update (what the first kernel leaves in its output array) added into its
    destination node's row of a zero array. -/
theorem V5_main_v10 (c : Dev nD) :
    V5 m ρ c main_v10
      = Host.scatterAdd scatter_S50000x128_S640000x1_S640000x128_1_0_0_1
          (broadcastInDim S50000x128 ![] Facts₀.bcast_S_S50000x128 (constant (F := Ideal) S_ .f32 0x00000000#32))
          (broadcastInDim S640000x1 ![0] Facts₀.bcast_S640000_S640000x1_0 (m ((c : Thread nD τ).loc main_arg3)))
          ((dat0 (F := Ideal) (V3 m ρ) c).arrAt 9 cfg0.N) := by
  unfold V5 W5
  after_results_simp
  rw [W4_main_arg3]
  exact congrArg _ (W4_arr m ρ c 9)

/-- The node update's first weight matrix's band for the summed messages. -/
theorem V5_main_v11 (c : Dev nD) :
    V5 m ρ c main_v11 = Cert.Mp.band (K := 256) (m ((c : Thread nD τ).loc main_arg8)) 0 (by decide) := by
  unfold V5 W5
  after_results_simp
  rw [W4_main_arg8]
  exact slice_band 0 _ _ _

/-- Its band for the node's own row. -/
theorem V5_main_v12 (c : Dev nD) :
    V5 m ρ c main_v12 = Cert.Mp.band (K := 256) (m ((c : Thread nD τ).loc main_arg8)) 128 (by decide) := by
  unfold V5 W5
  after_results_simp
  rw [W4_main_arg8]
  exact slice_band 128 _ _ _

/-- The node update's first bias, as a row. -/
theorem V5_main_v13 (c : Dev nD) : V5 m ρ c main_v13 = Cert.Mp.asRow (m ((c : Thread nD τ).loc main_arg9)) := by
  unfold V5 W5
  after_results_simp
  rw [W4_main_arg9]
  exact cast_asRow _ _

/-- The node update's second bias, as a row. -/
theorem V5_main_v14 (c : Dev nD) : V5 m ρ c main_v14 = Cert.Mp.asRow (m ((c : Thread nD τ).loc main_arg11)) := by
  unfold V5 W5
  after_results_simp
  rw [W4_main_arg11]
  exact cast_asRow _ _

end Cert.KernelIdeal.HostValues

end
-- ==== Proof.RefValue.lean ====
/-
  The reference's two updates, stage by stage, are the row-wise two-layer perceptron.

  The reference lays the source rows, the destination rows and the edge rows side by side into rows of 384 numbers and
  multiplies by a weight matrix of 384 rows. A sum over 384 positions is the sum of its three thirds, and in each third
  the side-by-side row reads one of the three arrays, so the product is the sum of the three arrays' products with the
  three bands of 128 rows of the matrix, added in the order first, second, third. The bias, the clip at zero, the second
  product and the second bias are then the same text on both sides. The node update is the same with two arrays, a
  matrix of 256 rows and its two bands; the summed messages enter as an array that is never opened.
-/
import proofs.«410413_j30605936951829_1_alg».proof.Proof.Gen.ReferenceIdeal.Read
import proofs.«410413_j30605936951829_1_alg».proof.Proof.Spec
import proofs.«410413_j30605936951829_1_alg».proof.Proof.LibPlainProduct

noncomputable section

namespace Cert.ReferenceIdeal.RefValue

open Idealize.ShloMosaic Idealize.ShloMosaic.ValueIdx
open Cert.ReferenceIdeal Cert.ReferenceIdeal.Read

open scoped BigOperators

/-! Three arrays of rows laid side by side: a position in the first 128 columns reads the first array, one in the
    next 128 the second, one in the last 128 the third, each at the same row. -/

theorem cat3_fst {R : Nat} (a b e : (⟨2, ![R, 128]⟩ : Shape).Idx → EReal)
    (h : Shape.Concatenates [(⟨2, ![R, 128]⟩ : Shape), ⟨2, ![R, 128]⟩, ⟨2, ![R, 128]⟩] ⟨2, ![R, 384]⟩ 1)
    (p : Fin R) (j : Fin 128) :
    concatenate (⟨2, ![R, 384]⟩ : Shape) 1 [⟨⟨2, ![R, 128]⟩, a⟩, ⟨⟨2, ![R, 128]⟩, b⟩, ⟨⟨2, ![R, 128]⟩, e⟩] h
        (ix2 p (⟨j.val, by omega⟩ : Fin 384)) = a (ix2 p j) := by
  refine concatenate_apply_piece (t := ⟨2, ![R, 384]⟩) 1
    [⟨⟨2, ![R, 128]⟩, a⟩, ⟨⟨2, ![R, 128]⟩, b⟩, ⟨⟨2, ![R, 128]⟩, e⟩] h _ 0 (Nat.lt_of_sub_eq_succ rfl) ⟨2, ![R, 128]⟩ a rfl rfl 0 rfl
    (ix2 p j) ?_ ?_
  · intro c hc
    match c with
    | ⟨0, _⟩ => rfl
    | ⟨1, _⟩ => exact absurd rfl hc
  · exact Nat.zero_add _

theorem cat3_snd {R : Nat} (a b e : (⟨2, ![R, 128]⟩ : Shape).Idx → EReal)
    (h : Shape.Concatenates [(⟨2, ![R, 128]⟩ : Shape), ⟨2, ![R, 128]⟩, ⟨2, ![R, 128]⟩] ⟨2, ![R, 384]⟩ 1)
    (p : Fin R) (j : Fin 128) :
    concatenate (⟨2, ![R, 384]⟩ : Shape) 1 [⟨⟨2, ![R, 128]⟩, a⟩, ⟨⟨2, ![R, 128]⟩, b⟩, ⟨⟨2, ![R, 128]⟩, e⟩] h
        (ix2 p (⟨128 + j.val, by omega⟩ : Fin 384)) = b (ix2 p j) := by
  refine concatenate_apply_piece (t := ⟨2, ![R, 384]⟩) 1
    [⟨⟨2, ![R, 128]⟩, a⟩, ⟨⟨2, ![R, 128]⟩, b⟩, ⟨⟨2, ![R, 128]⟩, e⟩] h _ 1 (Nat.lt_of_sub_eq_succ rfl) ⟨2, ![R, 128]⟩ b rfl rfl 128 rfl
    (ix2 p j) ?_ ?_
  · intro c hc
    match c with
    | ⟨0, _⟩ => rfl
    | ⟨1, _⟩ => exact absurd rfl hc
  · rfl

theorem cat3_trd {R : Nat} (a b e : (⟨2, ![R, 128]⟩ : Shape).Idx → EReal)
    (h : Shape.Concatenates [(⟨2, ![R, 128]⟩ : Shape), ⟨2, ![R, 128]⟩, ⟨2, ![R, 128]⟩] ⟨2, ![R, 384]⟩ 1)
    (p : Fin R) (j : Fin 128) :
    concatenate (⟨2, ![R, 384]⟩ : Shape) 1 [⟨⟨2, ![R, 128]⟩, a⟩, ⟨⟨2, ![R, 128]⟩, b⟩, ⟨⟨2, ![R, 128]⟩, e⟩] h
        (ix2 p (⟨256 + j.val, by omega⟩ : Fin 384)) = e (ix2 p j) := by
  refine concatenate_apply_piece (t := ⟨2, ![R, 384]⟩) 1
    [⟨⟨2, ![R, 128]⟩, a⟩, ⟨⟨2, ![R, 128]⟩, b⟩, ⟨⟨2, ![R, 128]⟩, e⟩] h _ 2 (Nat.lt_of_sub_eq_succ rfl) ⟨2, ![R, 128]⟩ e rfl rfl 256 rfl
    (ix2 p j) ?_ ?_
  · intro c hc
    match c with
    | ⟨0, _⟩ => rfl
    | ⟨1, _⟩ => exact absurd rfl hc
  · rfl

/-- A band of a taller weight matrix, read at an entry. -/
theorem band_apply {K : Nat} (W : (⟨2, ![K, 128]⟩ : Shape).Idx → EReal) (off : Nat) (h : off + 128 ≤ K) (j k : Fin 128) :
    Cert.Mp.band W off h (ix2 j k) = W (ix2 (⟨off + j.val, by omega⟩ : Fin K) k) := rfl

/-- A bias vector laid out as one row, read at an entry. -/
theorem asRow_apply (b : (⟨1, ![128]⟩ : Shape).Idx → EReal) (k : Fin 128) :
    Cert.Mp.asRow b (ix2 (0 : Fin 1) k) = b (ix1 k) := rfl

/-- The product of three arrays laid side by side with a weight matrix of 384 rows is the sum of the three arrays'
    products with the matrix's three bands of 128 rows, added first to second, then the third. -/
theorem hidden3 {R : Nat} (a b e : (⟨2, ![R, 128]⟩ : Shape).Idx → EReal) (W : (⟨2, ![384, 128]⟩ : Shape).Idx → EReal)
    (h : Shape.Concatenates [(⟨2, ![R, 128]⟩ : Shape), ⟨2, ![R, 128]⟩, ⟨2, ![R, 128]⟩] ⟨2, ![R, 384]⟩ 1)
    (p : Fin R) (k : Fin 128) :
    ∑ j : Fin 384, concatenate (⟨2, ![R, 384]⟩ : Shape) 1 [⟨⟨2, ![R, 128]⟩, a⟩, ⟨⟨2, ![R, 128]⟩, b⟩, ⟨⟨2, ![R, 128]⟩, e⟩] h (ix2 p j)
        * W (ix2 j k)
      = (Cert.Mp.rowMul (Cert.Mp.rowOf a p) (Cert.Mp.band W 0 (by decide)) k
          + Cert.Mp.rowMul (Cert.Mp.rowOf b p) (Cert.Mp.band W 128 (by decide)) k)
        + Cert.Mp.rowMul (Cert.Mp.rowOf e p) (Cert.Mp.band W 256 (by decide)) k := by
  rw [Cert.Mp.sum_384]
  unfold Cert.Mp.rowMul Cert.Mp.rowOf
  simp only [band_apply, cat3_fst, cat3_snd, cat3_trd, Nat.zero_add]

/-- The first edge product at an entry: the side-by-side array times the 384-row matrix, as three band products. -/
theorem v15_at (x0 : (⟨S50000x128, .f32⟩ : BufTy).Contents (Elt Ideal)) (x1 : (⟨S640000x128, .f32⟩ : BufTy).Contents (Elt Ideal))
    (x2 x3 : (⟨S640000, .i32⟩ : BufTy).Contents (Elt Ideal)) (x4 : (⟨S384x128, .f32⟩ : BufTy).Contents (Elt Ideal))
    (p : Fin 640000) (k : Fin 128) :
    val_main_v15 (F := Ideal) x0 x1 x2 x3 x4 (ix2 p k)
      = (Cert.Mp.rowMul (Cert.Mp.rowOf (val_main_v6 (F := Ideal) x0 x2) p) (Cert.Mp.band x4 0 (by decide)) k
          + Cert.Mp.rowMul (Cert.Mp.rowOf (val_main_v13 (F := Ideal) x0 x3) p) (Cert.Mp.band x4 128 (by decide)) k)
        + Cert.Mp.rowMul (Cert.Mp.rowOf x1 p) (Cert.Mp.band x4 256 (by decide)) k := by
  rw [val_main_v15_apply]
  have el : ∀ j : Fin 384, lidx_main_v15 (ix2 p k) j = ix2 p j := fun j =>
    funext fun a => Fin.ext (by match a with | ⟨0, _⟩ => rfl | ⟨1, _⟩ => rfl)
  have er : ∀ j : Fin 384, ridx_main_v15 (ix2 p k) j = ix2 j k := fun j =>
    funext fun a => Fin.ext (by match a with | ⟨0, _⟩ => rfl | ⟨1, _⟩ => rfl)
  have hs : ∑ j : Fin 384, val_main_v14 (F := Ideal) x0 x1 x2 x3 (lidx_main_v15 (ix2 p k) j) * x4 (ridx_main_v15 (ix2 p k) j)
      = ∑ j : Fin 384, val_main_v14 (F := Ideal) x0 x1 x2 x3 (ix2 p j) * x4 (ix2 j k) :=
    Finset.sum_congr rfl fun j _ => by rw [el j, er j]
  rw [hs]
  unfold val_main_v14
  generalize val_main_v6 (F := Ideal) x0 x2 = a
  generalize val_main_v13 (F := Ideal) x0 x3 = b
  exact hidden3 a b x1 x4 _ p k

/-- The edge update's clipped pre-activation at an entry. -/
theorem v19_at (x0 : (⟨S50000x128, .f32⟩ : BufTy).Contents (Elt Ideal)) (x1 : (⟨S640000x128, .f32⟩ : BufTy).Contents (Elt Ideal))
    (x2 x3 : (⟨S640000, .i32⟩ : BufTy).Contents (Elt Ideal)) (x4 : (⟨S384x128, .f32⟩ : BufTy).Contents (Elt Ideal))
    (x5 : (⟨S128, .f32⟩ : BufTy).Contents (Elt Ideal)) (p : Fin 640000) (k : Fin 128) :
    val_main_v19 (F := Ideal) x0 x1 x2 x3 x4 x5 (ix2 p k)
      = max (Cert.Mp.edgeHidden (Cert.Mp.rowOf (val_main_v6 (F := Ideal) x0 x2) p) (Cert.Mp.rowOf (val_main_v13 (F := Ideal) x0 x3) p)
              (Cert.Mp.rowOf x1 p) (Cert.Mp.band x4 0 (by decide)) (Cert.Mp.band x4 128 (by decide)) (Cert.Mp.band x4 256 (by decide))
              (Cert.Mp.asRow x5) k)
          (Ideal.ofBits .f32 0x00000000#32) := by
  rw [val_main_v19_apply, val_main_v18_apply, v15_at, val_main_v17_apply, val_main_v16_apply,
    val_main_call0_v0_apply, val_main_call0_cst_apply, Ideal.maximumf_def, Ideal.addf_def, Ideal.ofBits_def]
  have eb : idx_main_v16 (idx_main_v17 (ix2 p k)) = ix1 k :=
    funext fun a => Fin.ext (by match a with | ⟨0, _⟩ => rfl)
  rw [eb]
  unfold Cert.Mp.edgeHidden
  rw [asRow_apply]

theorem edge_eq (x0 : (⟨S50000x128, .f32⟩ : BufTy).Contents (Elt Ideal)) (x1 : (⟨S640000x128, .f32⟩ : BufTy).Contents (Elt Ideal))
    (x2 x3 : (⟨S640000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v23 (F := Ideal) x0 x1 x2 x3 x4 x5 x6 x7
      = Cert.Mp.edgeOut (R := 640000) (val_main_v6 (F := Ideal) x0 x2) (val_main_v13 (F := Ideal) x0 x3) x1
          (Cert.Mp.band x4 0 (by decide)) (Cert.Mp.band x4 128 (by decide)) (Cert.Mp.band x4 256 (by decide))
          (Cert.Mp.asRow x5) x6 (Cert.Mp.asRow x7) := by
  funext i
  obtain ⟨p, q, rfl⟩ : ∃ (p : Fin 640000) (q : Fin 128), i = ix2 p q := ⟨i 0, i 1, eq_ix2 i⟩
  rw [Cert.Mp.edgeOut_apply, val_main_v23_apply, val_main_v20_apply, val_main_v22_apply, val_main_v21_apply, Ideal.addf_def]
  have el : ∀ k : Fin 128, lidx_main_v20 (ix2 p q) k = ix2 p k := fun k =>
    funext fun a => Fin.ext (by match a with | ⟨0, _⟩ => rfl | ⟨1, _⟩ => rfl)
  have er : ∀ k : Fin 128, ridx_main_v20 (ix2 p q) k = ix2 k q := fun k =>
    funext fun a => Fin.ext (by match a with | ⟨0, _⟩ => rfl | ⟨1, _⟩ => rfl)
  have eb : idx_main_v21 (idx_main_v22 (ix2 p q)) = ix1 q :=
    funext fun a => Fin.ext (by match a with | ⟨0, _⟩ => rfl)
  rw [eb]
  unfold Cert.Mp.edgeRow Cert.Mp.layerOut
  rw [asRow_apply]
  refine congrArg (· + x7 (ix1 q)) (Finset.sum_congr rfl fun k _ => ?_)
  rw [el k, er k, v19_at]

/-! Two arrays of rows laid side by side: a position in the first 128 columns reads the first array, one in the last
    128 the second, at the same row. -/

theorem cat2_fst {R : Nat} (a n : (⟨2, ![R, 128]⟩ : Shape).Idx → EReal)
    (h : Shape.Concatenates [(⟨2, ![R, 128]⟩ : Shape), ⟨2, ![R, 128]⟩] ⟨2, ![R, 256]⟩ 1)
    (p : Fin R) (j : Fin 128) :
    concatenate (⟨2, ![R, 256]⟩ : Shape) 1 [⟨⟨2, ![R, 128]⟩, a⟩, ⟨⟨2, ![R, 128]⟩, n⟩] h
        (ix2 p (⟨j.val, by omega⟩ : Fin 256)) = a (ix2 p j) := by
  refine concatenate_apply_piece (t := ⟨2, ![R, 256]⟩) 1
    [⟨⟨2, ![R, 128]⟩, a⟩, ⟨⟨2, ![R, 128]⟩, n⟩] h _ 0 (Nat.lt_of_sub_eq_succ rfl) ⟨2, ![R, 128]⟩ a rfl rfl 0 rfl
    (ix2 p j) ?_ ?_
  · intro c hc
    match c with
    | ⟨0, _⟩ => rfl
    | ⟨1, _⟩ => exact absurd rfl hc
  · exact Nat.zero_add _

theorem cat2_snd {R : Nat} (a n : (⟨2, ![R, 128]⟩ : Shape).Idx → EReal)
    (h : Shape.Concatenates [(⟨2, ![R, 128]⟩ : Shape), ⟨2, ![R, 128]⟩] ⟨2, ![R, 256]⟩ 1)
    (p : Fin R) (j : Fin 128) :
    concatenate (⟨2, ![R, 256]⟩ : Shape) 1 [⟨⟨2, ![R, 128]⟩, a⟩, ⟨⟨2, ![R, 128]⟩, n⟩] h
        (ix2 p (⟨128 + j.val, by omega⟩ : Fin 256)) = n (ix2 p j) := by
  refine concatenate_apply_piece (t := ⟨2, ![R, 256]⟩) 1
    [⟨⟨2, ![R, 128]⟩, a⟩, ⟨⟨2, ![R, 128]⟩, n⟩] h _ 1 (Nat.lt_of_sub_eq_succ rfl) ⟨2, ![R, 128]⟩ n rfl rfl 128 rfl
    (ix2 p j) ?_ ?_
  · intro c hc
    match c with
    | ⟨0, _⟩ => rfl
    | ⟨1, _⟩ => exact absurd rfl hc
  · rfl

/-- The product of two arrays laid side by side with a weight matrix of 256 rows is the sum of the two arrays' products
    with the matrix's two bands of 128 rows. -/
theorem hidden2 {R : Nat} (a n : (⟨2, ![R, 128]⟩ : Shape).Idx → EReal) (W : (⟨2, ![256, 128]⟩ : Shape).Idx → EReal)
    (h : Shape.Concatenates [(⟨2, ![R, 128]⟩ : Shape), ⟨2, ![R, 128]⟩] ⟨2, ![R, 256]⟩ 1)
    (p : Fin R) (k : Fin 128) :
    ∑ j : Fin 256, concatenate (⟨2, ![R, 256]⟩ : Shape) 1 [⟨⟨2, ![R, 128]⟩, a⟩, ⟨⟨2, ![R, 128]⟩, n⟩] h (ix2 p j) * W (ix2 j k)
      = Cert.Mp.rowMul (Cert.Mp.rowOf a p) (Cert.Mp.band W 0 (by decide)) k
        + Cert.Mp.rowMul (Cert.Mp.rowOf n p) (Cert.Mp.band W 128 (by decide)) k := by
  rw [Cert.Mp.sum_256]
  unfold Cert.Mp.rowMul Cert.Mp.rowOf
  simp only [band_apply, cat2_fst, cat2_snd, Nat.zero_add]

/-- The first node product at an entry: the side-by-side array times the 256-row matrix, as two band products. -/
theorem v28_at (x0 : (⟨S50000x128, .f32⟩ : BufTy).Contents (Elt Ideal)) (x1 : (⟨S640000x128, .f32⟩ : BufTy).Contents (Elt Ideal))
    (x2 x3 : (⟨S640000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (p : Fin 50000) (k : Fin 128) :
    val_main_v28 (F := Ideal) x0 x1 x2 x3 x4 x5 x6 x7 x8 (ix2 p k)
      = Cert.Mp.rowMul (Cert.Mp.rowOf (val_main_v26 (F := Ideal) x0 x1 x2 x3 x4 x5 x6 x7) p) (Cert.Mp.band x8 0 (by decide)) k
        + Cert.Mp.rowMul (Cert.Mp.rowOf x0 p) (Cert.Mp.band x8 128 (by decide)) k := by
  rw [val_main_v28_apply]
  have el : ∀ j : Fin 256, lidx_main_v28 (ix2 p k) j = ix2 p j := fun j =>
    funext fun a => Fin.ext (by match a with | ⟨0, _⟩ => rfl | ⟨1, _⟩ => rfl)
  have er : ∀ j : Fin 256, ridx_main_v28 (ix2 p k) j = ix2 j k := fun j =>
    funext fun a => Fin.ext (by match a with | ⟨0, _⟩ => rfl | ⟨1, _⟩ => rfl)
  have hs : ∑ j : Fin 256, val_main_v27 (F := Ideal) x0 x1 x2 x3 x4 x5 x6 x7 (lidx_main_v28 (ix2 p k) j) * x8 (ridx_main_v28 (ix2 p k) j)
      = ∑ j : Fin 256, val_main_v27 (F := Ideal) x0 x1 x2 x3 x4 x5 x6 x7 (ix2 p j) * x8 (ix2 j k) :=
    Finset.sum_congr rfl fun j _ => by rw [el j, er j]
  rw [hs]
  unfold val_main_v27
  generalize val_main_v26 (F := Ideal) x0 x1 x2 x3 x4 x5 x6 x7 = a
  exact hidden2 a x0 x8 _ p k

/-- The node update's clipped pre-activation at an entry. -/
theorem v32_at (x0 : (⟨S50000x128, .f32⟩ : BufTy).Contents (Elt Ideal)) (x1 : (⟨S640000x128, .f32⟩ : BufTy).Contents (Elt Ideal))
    (x2 x3 : (⟨S640000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (p : Fin 50000) (k : Fin 128) :
    val_main_v32 (F := Ideal) x0 x1 x2 x3 x4 x5 x6 x7 x8 x9 (ix2 p k)
      = max (Cert.Mp.nodeHidden (Cert.Mp.rowOf (val_main_v26 (F := Ideal) x0 x1 x2 x3 x4 x5 x6 x7) p) (Cert.Mp.rowOf x0 p)
              (Cert.Mp.band x8 0 (by decide)) (Cert.Mp.band x8 128 (by decide)) (Cert.Mp.asRow x9) k)
          (Ideal.ofBits .f32 0x00000000#32) := by
  rw [val_main_v32_apply, val_main_v31_apply, v28_at, val_main_v30_apply, val_main_v29_apply,
    val_main_call1_v0_apply, val_main_call1_cst_apply, Ideal.maximumf_def, Ideal.addf_def, Ideal.ofBits_def]
  have eb : idx_main_v29 (idx_main_v30 (ix2 p k)) = ix1 k :=
    funext fun a => Fin.ext (by match a with | ⟨0, _⟩ => rfl)
  rw [eb]
  unfold Cert.Mp.nodeHidden
  rw [asRow_apply]

theorem node_eq (x0 : (⟨S50000x128, .f32⟩ : BufTy).Contents (Elt Ideal)) (x1 : (⟨S640000x128, .f32⟩ : BufTy).Contents (Elt Ideal))
    (x2 x3 : (⟨S640000, .i32⟩ : BufTy).Contents (Elt Ideal)) (x4 : (⟨S384x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S256x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) :
    val_main_v36 (F := Ideal) x0 x1 x2 x3 x4 x5 x6 x7 x8 x9 x10 x11
      = Cert.Mp.nodeOut (R := 50000) (val_main_v26 (F := Ideal) x0 x1 x2 x3 x4 x5 x6 x7) x0
          (Cert.Mp.band x8 0 (by decide)) (Cert.Mp.band x8 128 (by decide))
          (Cert.Mp.asRow x9) x10 (Cert.Mp.asRow x11) := by
  funext i
  obtain ⟨p, q, rfl⟩ : ∃ (p : Fin 50000) (q : Fin 128), i = ix2 p q := ⟨i 0, i 1, eq_ix2 i⟩
  rw [Cert.Mp.nodeOut_apply, val_main_v36_apply, val_main_v33_apply, val_main_v35_apply, val_main_v34_apply, Ideal.addf_def]
  have el : ∀ k : Fin 128, lidx_main_v33 (ix2 p q) k = ix2 p k := fun k =>
    funext fun a => Fin.ext (by match a with | ⟨0, _⟩ => rfl | ⟨1, _⟩ => rfl)
  have er : ∀ k : Fin 128, ridx_main_v33 (ix2 p q) k = ix2 k q := fun k =>
    funext fun a => Fin.ext (by match a with | ⟨0, _⟩ => rfl | ⟨1, _⟩ => rfl)
  have eb : idx_main_v34 (idx_main_v35 (ix2 p q)) = ix1 q :=
    funext fun a => Fin.ext (by match a with | ⟨0, _⟩ => rfl)
  rw [eb]
  unfold Cert.Mp.nodeRow Cert.Mp.layerOut
  rw [asRow_apply]
  refine congrArg (· + x11 (ix1 q)) (Finset.sum_congr rfl fun k _ => ?_)
  rw [el k, er k, v32_at]

end Cert.ReferenceIdeal.RefValue

end
-- ==== Proof.LibScatterAddRows.lean ====
/-
  An accumulating row scatter ignores the update rows it drops.

  Updates `u : [E, C]` are added into an operand `x : [N, C]`, update row `p` going to the operand row named by the
  signed index `idx (p, 0)`, `idx : [E, 1]`. Over the extended reals the result at an operand entry is that entry plus
  the sum of the update entries that land on it. The start of a row's window is the index read signed and not clamped,
  so a row whose index is negative or at least `N` lands on no entry and enters no sum. Hence two update arrays that
  agree on every row whose index names a row of the operand scatter to the same array. The dimension numbers of such a
  scatter (`IsRowScatter`, four equations a printed record proves by `rfl`) are read here once, at any three extents.
-/
import Idealize.ShloMosaic.PureOps.Ideal.Laws
import Idealize.ShloMosaic.Lib.ValueIdx

noncomputable section

open scoped BigOperators

namespace Cert.Lib.ScatterAddRows

open Idealize.ShloMosaic Idealize.ShloMosaic.ValueIdx

variable {N E C : Nat}

/-- The dimension numbers of a row scatter of `[E, C]` updates into an `[N, C]` operand by `[E, 1]` indices: the
    updates' axis 1 is the window axis, the operand's axis 0 is the inserted one and the one the index names, and the
    index vector lies along the indices' axis 1. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  iv : d.indexVectorDim = 1

variable {d : ScatterDims ⟨2, ![N, C]⟩ ⟨2, ![E, 1]⟩ ⟨2, ![E, C]⟩}

/-- A coordinate of an index depends only on the axis it is read at. -/
private theorem coord_congr {s : Shape} (j : s.Idx) (a b : Fin s.rank) (e : a = b) :
    (j a).val = (j b).val := by subst e; rfl

/-- The operand's axis 0 is an inserted axis: the window contributes nothing to the row. -/
theorem window_row (h : IsRowScatter d) (j : (⟨2, ![E, C]⟩ : Shape).Idx) : d.window j 0 = 0 := by
  obtain ⟨uw, iw, sd, iv, wf⟩ := d
  obtain ⟨huw, hiw, hsd, hiv⟩ := h
  simp only at huw hiw hsd hiv
  subst huw hiw hsd hiv
  unfold ScatterDims.window
  exact dif_neg (by
    show ¬ (0 : Fin 2) ∈ (List.finRange 2).filter (fun a => a ∉ [(0 : Fin 2)])
    decide)

/-- The row an update entry `j` starts at is the signed index of `j`'s own row, `idx (j 0, 0)`: the only scatter axis
    of the updates is their axis 0, and the only component of the index vector is component 0. -/
theorem start_row (h : IsRowScatter d) {w : Nat} (idx : IVec ⟨2, ![E, 1]⟩ w) (j : (⟨2, ![E, C]⟩ : Shape).Idx) :
    d.start j idx 0 = (idx (ix2 (j 0) (0 : Fin 1))).toInt := by
  obtain ⟨uw, iw, sd, iv, wf⟩ := d
  obtain ⟨huw, hiw, hsd, hiv⟩ := h
  simp only at huw hiw hsd hiv
  subst huw hiw hsd hiv
  unfold ScatterDims.start
  rw [dif_pos (show (0 : Fin 2) ∈ [(0 : Fin 2)] from List.mem_singleton.mpr rfl)]
  congr 2
  funext b
  match b with
  | ⟨0, _⟩ =>
    apply Fin.ext
    unfold ScatterDims.siIdx
    rw [dif_neg (show ¬ (0 : Nat) = 1 from Nat.zero_ne_one)]
    unfold ScatterDims.siCoord
    simp only [Fin.val_cast]
    exact coord_congr j _ 0 rfl
  | ⟨1, _⟩ =>
    apply Fin.ext
    unfold ScatterDims.siIdx
    rw [dif_pos rfl]
    show List.idxOf (0 : Fin 2) [(0 : Fin 2)] = 0
    decide

/-- An update that lands somewhere names a row of the operand. -/
theorem index_inRange_of_lands (h : IsRowScatter d) {w : Nat} (idx : IVec ⟨2, ![E, 1]⟩ w)
    (j : (⟨2, ![E, C]⟩ : Shape).Idx) (i : (⟨2, ![N, C]⟩ : Shape).Idx) (hl : d.resultIdx? j idx = some i) :
    0 ≤ (idx (ix2 (j 0) (0 : Fin 1))).toInt ∧ (idx (ix2 (j 0) (0 : Fin 1))).toInt < N := by
  unfold ScatterDims.resultIdx? at hl
  split at hl
  · rename_i hall
    -- landing means: on every operand axis, start plus window coordinate is inside the operand; read this on axis 0
    have h0 := hall 0
    rw [start_row h, window_row h] at h0
    have hN : (⟨2, ![N, C]⟩ : Shape).size 0 = N := rfl
    rw [hN] at h0
    simpa using h0
  · exact absurd hl (by simp)

/-- The accumulating row scatter does not see update rows whose index is outside the operand. -/
theorem scatterAdd_congr (h : IsRowScatter d) {w : Nat} (x : FVec Ideal ⟨2, ![N, C]⟩ .f32) (idx : IVec ⟨2, ![E, 1]⟩ w)
    (u u' : FVec Ideal ⟨2, ![E, C]⟩ .f32)
    (hu : ∀ (p : Fin E) (q : Fin C), 0 ≤ (idx (ix2 p (0 : Fin 1))).toInt → (idx (ix2 p (0 : Fin 1))).toInt < N →
            u (ix2 p q) = u' (ix2 p q)) :
    Host.scatterAdd d x idx u = Host.scatterAdd d x idx u' := by
  funext i
  show Ideal.hostScatterAdd d x idx u i = Ideal.hostScatterAdd d x idx u' i
  unfold Ideal.hostScatterAdd
  congr 1
  -- entry by entry over the updates that land on `i`: each of them has its row's index in range
  refine Finset.sum_congr rfl fun j hj => ?_
  have hl : d.resultIdx? j idx = some i := (Finset.mem_filter.mp hj).2
  obtain ⟨h0, h1⟩ := index_inRange_of_lands h idx j i hl
  rw [eq_ix2 j]
  exact hu (j 0) (j 1) h0 h1

end Cert.Lib.ScatterAddRows

end
-- ==== Proof.Bridge.lean ====
/-
  The kernel's result is the reference's.

  Both programs compute, for every edge, a two-layer perceptron of the source node's row, the destination node's row and
  the edge's row; add every edge's update into its destination node's row; and compute, for every node, a second
  two-layer perceptron of that sum and the node's own row. They differ in one place: the kernel looks a node row up
  with a guard that puts a fill word where the index is no row number of the table, the reference without one. Every
  source index is a row number by the precondition, so the source rows agree everywhere. A destination index need not
  be one; but the same index names the row the edge's update is added into, and an update whose index is no row number
  of the table is added nowhere. So the two sums see the same updates, and the node updates agree.
-/
import proofs.«410413_j30605936951829_1_alg».proof.Proof.Gen.ReferenceIdeal.Read
import proofs.«410413_j30605936951829_1_alg».proof.Proof.EdgeRegion
import proofs.«410413_j30605936951829_1_alg».proof.Proof.NodeRegion
import proofs.«410413_j30605936951829_1_alg».proof.Proof.HostValues
import proofs.«410413_j30605936951829_1_alg».proof.Proof.RefValue
import proofs.«410413_j30605936951829_1_alg».proof.Proof.LibScatterAddRows
import proofs.«410413_j30605936951829_1_alg».proof.Proof.TakeFill

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Facts₀
open Cert.KernelIdeal.HostValues

variable (m : (ℓ : Loc nD τ sig) → Buf (Elt Ideal) ℓ) (ρ : Dev nD → PrngReg)

/-! The twelve argument arrays of a device, at their literal types. -/
abbrev A0 (c : Dev nD) : FVec Ideal S50000x128 .f32 := m ((c : Thread nD τ).loc main_arg0)
abbrev A1 (c : Dev nD) : FVec Ideal S640000x128 .f32 := m ((c : Thread nD τ).loc main_arg1)
abbrev A2 (c : Dev nD) : IVec S640000 32 := m ((c : Thread nD τ).loc main_arg2)
abbrev A3 (c : Dev nD) : IVec S640000 32 := m ((c : Thread nD τ).loc main_arg3)
abbrev A4 (c : Dev nD) : FVec Ideal S384x128 .f32 := m ((c : Thread nD τ).loc main_arg4)
abbrev A5 (c : Dev nD) : FVec Ideal S128 .f32 := m ((c : Thread nD τ).loc main_arg5)
abbrev A6 (c : Dev nD) : FVec Ideal S128x128 .f32 := m ((c : Thread nD τ).loc main_arg6)
abbrev A7 (c : Dev nD) : FVec Ideal S128 .f32 := m ((c : Thread nD τ).loc main_arg7)
abbrev A8 (c : Dev nD) : FVec Ideal S256x128 .f32 := m ((c : Thread nD τ).loc main_arg8)
abbrev A9 (c : Dev nD) : FVec Ideal S128 .f32 := m ((c : Thread nD τ).loc main_arg9)
abbrev A10 (c : Dev nD) : FVec Ideal S128x128 .f32 := m ((c : Thread nD τ).loc main_arg10)
abbrev A11 (c : Dev nD) : FVec Ideal S128 .f32 := m ((c : Thread nD τ).loc main_arg11)

/-! The two programs print the same lookups and the same accumulation, each over its own copy of the shape names and
    dimension records: the copies are equal. -/

theorem gatherDims_eq : Cert.ReferenceIdeal.gather_S50000x128_S640000x1_S640000x128_1_0_n_n_0_1_1128
    = gather_S50000x128_S640000x1_S640000x128_1_0_n_n_0_1_1128 := rfl

theorem scatterDims_eq : Cert.ReferenceIdeal.scatter_S50000x128_S640000x1_S640000x128_1_0_0_1
    = scatter_S50000x128_S640000x1_S640000x128_1_0_0_1 := rfl

/-- The reference's source index column is the kernel program's. -/
theorem srcCol_eq (x2 : IVec S640000 32) :
    Cert.ReferenceIdeal.Read.val_main_v5 (F := Ideal) x2 = TakeFill.wrapCol x2 := by
  unfold Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0 TakeFill.wrapCol
  rfl

/-- The reference's destination index column is the kernel program's. -/
theorem dstCol_eq (x3 : IVec S640000 32) :
    Cert.ReferenceIdeal.Read.val_main_v12 (F := Ideal) x3 = TakeFill.wrapCol x3 := by
  unfold Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_c_1 Cert.ReferenceIdeal.Read.val_main_c_2 TakeFill.wrapCol
  rfl

/-- The reference's source rows are the unguarded lookup at the kernel program's index column. -/
theorem srcRows_eq (x0 : FVec Ideal S50000x128 .f32) (x2 : IVec S640000 32) :
    Cert.ReferenceIdeal.Read.val_main_v6 (F := Ideal) x0 x2
      = Host.gather gather_S50000x128_S640000x1_S640000x128_1_0_n_n_0_1_1128 x0 (TakeFill.wrapCol x2) := by
  unfold Cert.ReferenceIdeal.Read.val_main_v6
  rw [srcCol_eq, gatherDims_eq]

/-- The reference's destination rows likewise. -/
theorem dstRows_eq (x0 : FVec Ideal S50000x128 .f32) (x3 : IVec S640000 32) :
    Cert.ReferenceIdeal.Read.val_main_v13 (F := Ideal) x0 x3
      = Host.gather gather_S50000x128_S640000x1_S640000x128_1_0_n_n_0_1_1128 x0 (TakeFill.wrapCol x3) := by
  unfold Cert.ReferenceIdeal.Read.val_main_v13
  rw [dstCol_eq, gatherDims_eq]

/-- The zero array both accumulations start from. -/
theorem zeros_eq : Cert.ReferenceIdeal.Read.val_main_v24 (F := Ideal)
    = broadcastInDim S50000x128 ![] Facts₀.bcast_S_S50000x128 (constant (F := Ideal) S_ .f32 0x00000000#32) := by
  unfold Cert.ReferenceIdeal.Read.val_main_v24 Cert.ReferenceIdeal.Read.val_main_cst
  rfl

/-- The destination indices as the accumulation's index column. -/
theorem scatterCol_eq (x3 : IVec S640000 32) :
    Cert.ReferenceIdeal.Read.val_main_v25 (F := Ideal) x3 = broadcastInDim S640000x1 ![0] Facts₀.bcast_S640000_S640000x1_0 x3 := by
  unfold Cert.ReferenceIdeal.Read.val_main_v25
  rfl

/-- On every edge whose destination index is a row number of the node table, the first kernel's output row is the
    reference's edge update. -/
theorem edge_agree (c : Dev nD)
    (hsrc : ∀ p : Fin 640000, 0 ≤ (A2 m c (ix1 p)).toInt ∧ (A2 m c (ix1 p)).toInt < 50000)
    (p : Fin 640000) (q : Fin 128) (h0 : 0 ≤ (A3 m c (ix1 p)).toInt) (h1 : (A3 m c (ix1 p)).toInt < 50000) :
    Cert.ReferenceIdeal.Read.val_main_v23 (F := Ideal) (A0 m c) (A1 m c) (A2 m c) (A3 m c) (A4 m c) (A5 m c) (A6 m c) (A7 m c) (ix2 p q)
      = (dat0 (F := Ideal) (V3 m ρ) c).arrAt 9 cfg0.N (ix2 p q) := by
  rw [Cert.ReferenceIdeal.RefValue.edge_eq, Cert.KernelIdeal.EdgeRegion.value (V3 m ρ) c, V3_main_v0, V3_main_v1, V3_main_arg1,
    V3_main_v2, V3_main_v3, V3_main_v4, V3_main_v5, V3_main_arg6, V3_main_v6]
  rw [Cert.Mp.edgeOut_apply, Cert.Mp.edgeOut_apply]
  have es : Cert.Mp.rowOf (R := 640000) (Cert.ReferenceIdeal.Read.val_main_v6 (F := Ideal) (A0 m c) (A2 m c)) p
      = Cert.Mp.rowOf (R := 640000) (TakeFill.takeFill (F := Ideal) (A0 m c) (A2 m c)) p :=
    by rw [srcRows_eq]; funext j; simp only [Cert.Mp.rowOf]; exact (TakeFill.takeFill_apply_of_inRange (F := Ideal) (A0 m c) (A2 m c) p (hsrc p).1 (hsrc p).2 j).symm
  have ed : Cert.Mp.rowOf (R := 640000) (Cert.ReferenceIdeal.Read.val_main_v13 (F := Ideal) (A0 m c) (A3 m c)) p
      = Cert.Mp.rowOf (R := 640000) (TakeFill.takeFill (F := Ideal) (A0 m c) (A3 m c)) p :=
    by rw [dstRows_eq]; funext j; simp only [Cert.Mp.rowOf]; exact (TakeFill.takeFill_apply_of_inRange (F := Ideal) (A0 m c) (A3 m c) p h0 h1 j).symm
  rw [es, ed]

/-- The summed messages agree: the two accumulations differ only in update rows that are added nowhere. -/
theorem agg_eq (c : Dev nD)
    (hsrc : ∀ p : Fin 640000, 0 ≤ (A2 m c (ix1 p)).toInt ∧ (A2 m c (ix1 p)).toInt < 50000) :
    Cert.ReferenceIdeal.Read.val_main_v26 (F := Ideal) (A0 m c) (A1 m c) (A2 m c) (A3 m c) (A4 m c) (A5 m c) (A6 m c) (A7 m c)
      = V5 m ρ c main_v10 := by
  rw [V5_main_v10]
  unfold Cert.ReferenceIdeal.Read.val_main_v26
  rw [zeros_eq, scatterCol_eq, scatterDims_eq]
  refine Cert.Lib.ScatterAddRows.scatterAdd_congr (N := 50000) (E := 640000) (C := 128) ⟨rfl, rfl, rfl, rfl⟩ _ _ _ _ (fun p q h0 h1 => ?_)
  rw [TakeFill.col_apply] at h0 h1
  exact edge_agree m ρ c hsrc p q h0 (by exact_mod_cast h1)

/-- The reference's result, of the kernel's argument arrays, is what the kernel's last boundary holds in its result
    buffer. -/
theorem result_eq (c : Dev nD)
    (hsrc : ∀ p : Fin 640000, 0 ≤ (A2 m c (ix1 p)).toInt ∧ (A2 m c (ix1 p)).toInt < 50000) :
    Cert.ReferenceIdeal.Read.val_main_v36 (F := Ideal) (A0 m c) (A1 m c) (A2 m c) (A3 m c) (A4 m c) (A5 m c) (A6 m c) (A7 m c)
        (A8 m c) (A9 m c) (A10 m c) (A11 m c)
      = W6 m ρ c (Proc.devRef .tc main_v15) := by
  rw [Cert.ReferenceIdeal.RefValue.node_eq, agg_eq m ρ c hsrc]
  refine Eq.trans ?_ (W6_arr m ρ c 7).symm
  rw [Cert.KernelIdeal.NodeRegion.value (V5 m ρ) c, V5_main_arg0, V5_main_v11, V5_main_v12, V5_main_v13, V5_main_arg10, V5_main_v14]

end Cert.Bridge

end
-- ==== Proof.lean ====
/-
  A graph message-passing layer computed by two kernels, against its plain reference.

  For every edge the layer applies a two-layer perceptron (product with a weight matrix, bias, clip at zero, second
  product, second bias) to the concatenation of the source node's row, the destination node's row and the edge's row;
  it adds every edge's update into its destination node's row; and for every node it applies a second two-layer
  perceptron to the concatenation of that sum and the node's own row. The kernel program computes each perceptron in a
  kernel of its own, block of 5000 rows by block, and writes the product with a concatenation as the sum of the products
  with the weight matrix's bands of 128 rows; over the extended reals that is the same sum, by commutativity and
  associativity of addition alone. The row lookups and the accumulation are host operations in both programs. The one
  difference is the kernel program's guarded lookup, which agrees with the reference's on every index that is a row
  number of the node table: the precondition says so of the source indices, and an edge whose destination index is not
  one contributes to no node's sum in either program.

  The three frames: the two kernel programs' are the generated frame certificates; the reference's is its generated run
  with the result dropped. The idealization rewrote nothing, so the second-last conjunct is trivial.
-/
import proofs.«410413_j30605936951829_1_alg».proof.Defs
import proofs.«410413_j30605936951829_1_alg».proof.Proof.Gen.Kernel
import proofs.«410413_j30605936951829_1_alg».proof.Proof.Gen.Kernel.Skeleton
import proofs.«410413_j30605936951829_1_alg».proof.Proof.Gen.Kernel.Launch
import proofs.«410413_j30605936951829_1_alg».proof.Proof.Gen.Kernel.Points
import proofs.«410413_j30605936951829_1_alg».proof.Proof.Gen.Kernel.Frame
import proofs.«410413_j30605936951829_1_alg».proof.Proof.Gen.KernelIdeal
import proofs.«410413_j30605936951829_1_alg».proof.Proof.Gen.KernelIdeal.Skeleton
import proofs.«410413_j30605936951829_1_alg».proof.Proof.Gen.KernelIdeal.Launch
import proofs.«410413_j30605936951829_1_alg».proof.Proof.Gen.KernelIdeal.Points
import proofs.«410413_j30605936951829_1_alg».proof.Proof.Gen.KernelIdeal.Frame
import proofs.«410413_j30605936951829_1_alg».proof.Proof.Gen.ReferenceIdeal
import proofs.«410413_j30605936951829_1_alg».proof.Proof.Gen.Pre_finite_inputs
import proofs.«410413_j30605936951829_1_alg».proof.Proof.Gen.ReferenceIdeal.Run
import proofs.«410413_j30605936951829_1_alg».proof.Proof.Gen.ReferenceIdeal.Read
import proofs.«410413_j30605936951829_1_alg».proof.Proof.ValueRun
import proofs.«410413_j30605936951829_1_alg».proof.Proof.SrcRange
import proofs.«410413_j30605936951829_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the twelve arguments, with every source index a row number of the node table, the two
    idealized programs end with the same result on every device. -/
theorem algebraic : Cert.algebraic_KernelIdeal_ReferenceIdeal := by
  intro m ρ m' ρ' hpre hagree
  refine ⟨fun c => Cert.KernelIdeal.Gen.W6 m ρ c (Proc.devRef .tc Cert.KernelIdeal.main_v15),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v36_eq, e0, e1, e2, e3, e4, e5, e6, e7, e8, e9, e10, e11]
  exact Cert.Bridge.result_eq m ρ c
    (fun p => Cert.Pre_finite_inputs.SrcRange.src_inRange (F := Ideal) _ _ _ _ _ _ _ _ _ _ _ _ (hpre c) p)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
